-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : FVec F S128 .f32) (main_arg8 : FVec F S128 .f32) (main_arg11 : FVec F S800000 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S800000 .f32 := Host.absf main_arg11
  let main_cst_16 : FVec F S_ .f32 := constant S_ .f32 0x7F800000#32
  let main_v45 : FVec F S800000 .f32 := broadcastInDim S800000 ![] bcast_S_S800000 main_cst_16
  let main_v46 : IVec S800000 1 := cmpf .olt main_v44 main_v45
  let main_c_17 : IVec S_ 1 := constantI S_ 1 1#1
  let main_v47 : IVec S_ 1 := (fun x v => Host.reduce IntOp.andi x v reducesTo_S800000_S_d0 h_S_) main_v46 main_c_17
  let main_v48 : IVec S_ 1 := andi main_v43 main_v47
  main_v48

def fn_part1 {F : FTy → Type} [FloatOps F] (main_arg4 : FVec F S128 .f32) (main_arg5 : FVec F S256x128 .f32) (main_arg6 : FVec F S128 .f32) (main_arg7 : FVec F S128 .f32) (main_arg8 : FVec F S128 .f32) (main_arg11 : FVec F S800000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg11 main_v33

def fn {F : FTy → Type} [FloatOps F] (main_arg0 : FVec F S50000x256 .f32) (main_arg1 : FVec F S256x128 .f32) (main_arg2 : FVec F S128 .f32) (main_arg3 : FVec F S128 .f32) (main_arg4 : FVec F S128 .f32) (main_arg5 : FVec F S256x128 .f32) (main_arg6 : FVec F S128 .f32) (main_arg7 : FVec F S128 .f32) (main_arg8 : FVec F S128 .f32) (main_arg9 : IVec S800000 32) (main_arg10 : IVec S800000 32) (main_arg11 : FVec F S800000 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg11 main_v13 main_v16
-- ==== Kernel.lean ====
abbrev S50000x256 : Shape := ⟨2, ![50000, 256]⟩
abbrev S256x128 : Shape := ⟨2, ![256, 128]⟩
abbrev S128 : Shape := ⟨1, ![128]⟩
abbrev S800000 : Shape := ⟨1, ![800000]⟩
abbrev S800000x1 : Shape := ⟨2, ![800000, 1]⟩
abbrev S_ : Shape := ⟨0, ![]⟩
abbrev S800000x256 : Shape := ⟨2, ![800000, 256]⟩
abbrev S1x128 : Shape := ⟨2, ![1, 128]⟩
abbrev S2000x256 : Shape := ⟨2, ![2000, 256]⟩
abbrev S2000x128 : Shape := ⟨2, ![2000, 128]⟩
abbrev S2000 : Shape := ⟨1, ![2000]⟩
abbrev S2000x1 : Shape := ⟨2, ![2000, 1]⟩

abbrev nBuf : Space → Nat
  | .hbm => 35
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S800000, .i32⟩
  | .hbm, ⟨10, _⟩ => ⟨S800000, .i32⟩
  | .hbm, ⟨11, _⟩ => ⟨S800000, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x256, .f32⟩
  | .hbm, ⟨23, _⟩ => ⟨S800000x256, .f32⟩
  | .hbm, ⟨24, _⟩ => ⟨S_, .f32⟩
  | .hbm, ⟨25, _⟩ => ⟨S50000x256, .f32⟩
  | .hbm, ⟨26, _⟩ => ⟨S800000x1, .i32⟩
  | .hbm, ⟨27, _⟩ => ⟨S50000x256, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x256, .f32⟩
  | .local _ .vmem, ⟨13, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  shapeCasts_S2000x256_S2000x256 : S2000x256.ShapeCasts S2000x256
  inb_S2000x256_S2000x128_0_0 : ∀ a, (![0, 0] : Fin 2 → Nat) a + S2000x128.size a ≤ S2000x256.size a
  h_S2000x128 : 0 < S2000x128.numel
  inb_S2000x256_S2000x128_0_128 : ∀ a, (![0, 128] : Fin 2 → Nat) a + S2000x128.size a ≤ S2000x256.size a
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S50000x256.size a
  hwx0_10 : ∀ i : grid0.Coords, EltTy.bits .f32 = 32 ∨ (Rect.block (s := S50000x256) S2000x256.size (cc0_transform_10 i) (hinb0_10 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S2000x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S800000 : Shape := ⟨1, ![800000]⟩
abbrev S800000x1 : Shape := ⟨2, ![800000, 1]⟩
abbrev S_ : Shape := ⟨0, ![]⟩
abbrev S800000x256 : Shape := ⟨2, ![800000, 256]⟩
abbrev S50000x128 : Shape := ⟨2, ![50000, 128]⟩
abbrev S1x128 : Shape := ⟨2, ![1, 128]⟩
abbrev S50000 : Shape := ⟨1, ![50000]⟩
abbrev S50000x1 : Shape := ⟨2, ![50000, 1]⟩

abbrev nBuf : Space → Nat
  | .hbm => 131
  | .vmem => 0
  | .smem => 0
  | _ => 0

abbrev hbmTy0_0 (i : Nat) : BufTy := match i % 128 with
  | 0 => ⟨S50000x256, .f32⟩
  | 1 => ⟨S256x128, .f32⟩
  | 2 => ⟨S128, .f32⟩
  | 3 => ⟨S128, .f32⟩
  | 4 => ⟨S128, .f32⟩
  | 5 => ⟨S256x128, .f32⟩
  | 6 => ⟨S128, .f32⟩
  | 7 => ⟨S128, .f32⟩
  | 8 => ⟨S128, .f32⟩
  | 9 => ⟨S800000, .i32⟩
  | 10 => ⟨S800000, .i32⟩
  | 11 => ⟨S800000, .f32⟩
  | 12 => ⟨S800000x1, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x256, .f32⟩
  | 22 => ⟨S800000x256, .f32⟩
  | 23 => ⟨S800000x256, .f32⟩
  | 24 => ⟨S_, .f32⟩
  | 25 => ⟨S50000x256, .f32⟩
  | 26 => ⟨S800000x1, .i32⟩
  | 27 => ⟨S50000x256, .f32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S_, .i32⟩
  | 42 => ⟨S_, .f32⟩
  | 43 => ⟨S50000, .f32⟩
  | 44 => ⟨S50000x1, .f32⟩
  | 45 => ⟨S_, .f32⟩
  | 46 => ⟨S50000x1, .f32⟩
  | 47 => ⟨S50000x1, .f32⟩
  | 48 => ⟨S50000x128, .f32⟩
  | 49 => ⟨S50000x128, .f32⟩
  | 50 => ⟨S50000x128, .f32⟩
  | 51 => ⟨S_, .f32⟩
  | 52 => ⟨S_, .f32⟩
  | 53 => ⟨S_, .f32⟩
  | 54 => ⟨S_, .f32⟩
  | 55 => ⟨S50000, .f32⟩
  | 56 => ⟨S50000x1, .f32⟩
  | 57 => ⟨S50000x1, .f32⟩
  | 58 => ⟨S50000x1, .f32⟩
  | 59 => ⟨S_, .f32⟩
  | 60 => ⟨S_, .i1⟩
  | 61 => ⟨S_, .f32⟩
  | 62 => ⟨S_, .f32⟩
  | 63 => ⟨S50000x1, .f32⟩
  | 64 => ⟨S50000x1, .f32⟩
  | 65 => ⟨S_, .f32⟩
  | 66 => ⟨S50000x1, .f32⟩
  | 67 => ⟨S50000x1, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S50000x1, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .f32⟩
  | 87 => ⟨S50000, .f32⟩
  | 88 => ⟨S50000x1, .f32⟩
  | 89 => ⟨S_, .f32⟩
  | 90 => ⟨S50000x1, .f32⟩
  | 91 => ⟨S50000x1, .f32⟩
  | 92 => ⟨S_, .i32⟩
  | 93 => ⟨S_, .f32⟩
  | 94 => ⟨S50000, .f32⟩
  | 95 => ⟨S50000x1, .f32⟩
  | 96 => ⟨S_, .f32⟩
  | 97 => ⟨S50000x1, .f32⟩
  | 98 => ⟨S50000x1, .f32⟩
  | 99 => ⟨S50000x128, .f32⟩
  | 100 => ⟨S50000x128, .f32⟩
  | 101 => ⟨S50000x128, .f32⟩
  | 102 => ⟨S_, .f32⟩
  | 103 => ⟨S_, .f32⟩
  | 104 => ⟨S_, .f32⟩
  | 105 => ⟨S_, .f32⟩
  | 106 => ⟨S50000, .f32⟩
  | 107 => ⟨S50000x1, .f32⟩
  | 108 => ⟨S50000x1, .f32⟩
  | 109 => ⟨S50000x1, .f32⟩
  | 110 => ⟨S_, .f32⟩
  | 111 => ⟨S_, .i1⟩
  | 112 => ⟨S_, .f32⟩
  | 113 => ⟨S_, .f32⟩
  | 114 => ⟨S50000x1, .f32⟩
  | 115 => ⟨S50000x1, .f32⟩
  | 116 => ⟨S_, .f32⟩
  | 117 => ⟨S50000x1, .f32⟩
  | 118 => ⟨S50000x1, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S50000x1, .f32⟩
  | 125 => ⟨S50000x128, .f32⟩
  | 126 => ⟨S50000x128, .f32⟩
  | 127 => ⟨S1x128, .f32⟩
  | _ => ⟨S50000x256, .f32⟩

abbrev hbmTy0_1 (i : Nat) : BufTy := match i % 128 with
  | 0 => ⟨S50000x128, .f32⟩
  | 1 => ⟨S50000x128, .f32⟩
  | 2 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_call1_cst : Ref sig .tc := ⟨.hbm, 42, rfl⟩
abbrev main_call1_v0 : Ref sig .tc := ⟨.hbm, 43, rfl⟩
abbrev main_call1_v1 : Ref sig .tc := ⟨.hbm, 44, rfl⟩
abbrev main_call1_cst_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_cst_1 : Ref sig .tc := ⟨.hbm, 52, rfl⟩
abbrev main_call1_v8 : Ref sig .tc := ⟨.hbm, 53, rfl⟩
abbrev main_call1_cst_2 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_cst_3 : Ref sig .tc := ⟨.hbm, 59, rfl⟩
abbrev main_call1_v13 : Ref sig .tc := ⟨.hbm, 60, rfl⟩
abbrev main_call1_cst_4 : Ref sig .tc := ⟨.hbm, 61, rfl⟩
abbrev main_call1_call0_v0 : Ref sig .tc := ⟨.hbm, 62, rfl⟩
abbrev main_call1_call0_v1 : Ref sig .tc := ⟨.hbm, 63, rfl⟩
abbrev main_v22 : Ref sig .tc := ⟨.hbm, 64, rfl⟩
abbrev main_cst_4 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_call2_cst : Ref sig .tc := ⟨.hbm, 83, rfl⟩
abbrev main_call2_v0 : Ref sig .tc := ⟨.hbm, 84, rfl⟩
abbrev main_v40 : Ref sig .tc := ⟨.hbm, 85, rfl⟩
abbrev main_cst_5 : Ref sig .tc := ⟨.hbm, 86, rfl⟩
abbrev main_v41 : Ref sig .tc := ⟨.hbm, 87, rfl⟩
abbrev main_v42 : Ref sig .tc := ⟨.hbm, 88, rfl⟩
abbrev main_cst_6 : Ref sig .tc := ⟨.hbm, 89, rfl⟩
abbrev main_v43 : Ref sig .tc := ⟨.hbm, 90, rfl⟩
abbrev main_v44 : Ref sig .tc := ⟨.hbm, 91, rfl⟩
abbrev main_c_7 : Ref sig .tc := ⟨.hbm, 92, rfl⟩
abbrev main_call3_cst : Ref sig .tc := ⟨.hbm, 93, rfl⟩
abbrev main_call3_v0 : Ref sig .tc := ⟨.hbm, 94, rfl⟩
abbrev main_call3_v1 : Ref sig .tc := ⟨.hbm, 95, rfl⟩
abbrev main_call3_cst_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_v7 : Ref sig .tc := ⟨.hbm, 102, rfl⟩
abbrev main_call3_cst_1 : Ref sig .tc := ⟨.hbm, 103, rfl⟩
abbrev main_call3_v8 : Ref sig .tc := ⟨.hbm, 104, rfl⟩
abbrev main_call3_cst_2 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_v12 : Ref sig .tc := ⟨.hbm, 109, rfl⟩
abbrev main_call3_cst_3 : Ref sig .tc := ⟨.hbm, 110, rfl⟩
abbrev main_call3_v13 : Ref sig .tc := ⟨.hbm, 111, rfl⟩
abbrev main_call3_cst_4 : Ref sig .tc := ⟨.hbm, 112, rfl⟩
abbrev main_call3_call0_v0 : Ref sig .tc := ⟨.hbm, 113, rfl⟩
abbrev main_call3_call0_v1 : Ref sig .tc := ⟨.hbm, 114, rfl⟩
abbrev main_v45 : Ref sig .tc := ⟨.hbm, 115, rfl⟩
abbrev main_cst_8 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelHop.lean ====
/-
  The first hop as the kernel's program computes it on the host, before its one launch: each edge's weight times
  its sender's feature row (a negative sender wrapped once by the node count), summed into the receiver's row.
  It is the same chain of host operations as the reference's; the launch then reads it as its second operand.
-/
import proofs.«103738_j34849364640474_1_alg».proof.Proof.Gen.KernelIdeal

noncomputable section

namespace Cert.KernelIdeal.KTerm

open Cert.KernelIdeal Cert.KernelIdeal.Gen Idealize.ShloMosaic Idealize.ShloMosaic.TcCoe

variable {F : FTy → Type} [FloatOps F]

/-- The sending node of each edge, a negative entry wrapped once by the node count. -/
def wrapped (ec : IVec S800000 32) : IVec S800000 32 :=
  select (cmpi .slt ec (broadcastInDim S800000 ![] bcast_S_S800000 (constantI S_ 32 0#32)))
    (addi ec (broadcastInDim S800000 ![] bcast_S_S800000 (constantI S_ 32 50000#32))) ec

/-- The first hop: the weighted neighbour sum of the feature rows. -/
def hop (feat : FVec F S50000x256 .f32) (er ec : IVec S800000 32) (ev : FVec F S800000 .f32) : FVec F S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 er)
    (mulf (broadcastInDim S800000x256 ![0, 1] bcast_S800000x1_S800000x256_0_1 (broadcastInDim S800000x1 ![0] bcast_S800000_S800000x1_0 ev))
      (Host.gather gather_S50000x256_S800000x1_S800000x256_1_0_n_n_0_1_1256 feat
        (broadcastInDim S800000x1 ![0] bcast_S800000_S800000x1_0 (wrapped ec))))

end Cert.KernelIdeal.KTerm

end
-- ==== Proof.Spec.lean ====
/-
  What both programs compute, as one function of the argument arrays, index by index, on the extended reals.

  For one node with feature row `x` (256 entries), a dense layer `(W, b, s, o)` gives 128 outputs:
  the activation `h j = max (Σ_k x k · W k j + b j) 0`, its mean `μ = (Σ_j h j) / 128`, the mean square
  `v = (Σ_j (h j − μ)²) / 128` of the centred row, and the output `(h j − μ) · s j · rsqrt (v + ε) + o j`.
  The two constants are kept as the f32 words both programs print (`0x43000000` for 128, `0x3089705F` for ε):
  the same word on both sides is never evaluated.  Division is the extended reals' total division and `rsqrt`
  their total reciprocal square root, so no entry need be finite and nothing here asks it.

  The result array has 256 columns per node: columns 0 … 127 are the layer `(W0, b0, s0, o0)` of the node's
  feature row, columns 128 … 255 the layer `(W1, b1, s1, o1)` of the node's first-hop row.
-/
import Idealize.ShloMosaic.PureOps.Ideal.Laws
import Idealize.ShloMosaic.Lib.ValueIdx

noncomputable section

namespace Cert.Spec

open Idealize.ShloMosaic Idealize.ShloMosaic.ValueIdx

/-- The dense layer's activation for one node: `max (x·W + b) 0` at output `j`. -/
def act (x : Fin 256 → EReal) (W : Fin 256 → Fin 128 → EReal) (b : Fin 128 → EReal) (j : Fin 128) : EReal :=
  max ((∑ k : Fin 256, x k * W k j) + b j) 0

/-- The mean of 128 values as both programs spell it: their sum over the f32 word of 128. -/
def mean128 (h : Fin 128 → EReal) : EReal :=
  Ideal.div (∑ j : Fin 128, h j) (Ideal.ofBits .f32 0x43000000#32)

/-- One node's normalised layer output at `j`. -/
def ftRow (x : Fin 256 → EReal) (W : Fin 256 → Fin 128 → EReal) (b s o : Fin 128 → EReal) (j : Fin 128) : EReal :=
  (act x W b j - mean128 (act x W b)) * s j
      * Ideal.rsqrt (mean128 (fun l => (act x W b l - mean128 (act x W b)) * (act x W b l - mean128 (act x W b)))
          + Ideal.ofBits .f32 0x3089705F#32)
    + o j

/-- The whole result: at node `i 0`, the first layer of its feature row in columns below 128, the second layer of
    its first-hop row in the columns from 128 on. -/
def G (feat hop : (⟨2, ![50000, 256]⟩ : Shape).Idx → EReal) (W0 : (⟨2, ![256, 128]⟩ : Shape).Idx → EReal)
    (b0 s0 o0 : (⟨1, ![128]⟩ : Shape).Idx → EReal) (W1 : (⟨2, ![256, 128]⟩ : Shape).Idx → EReal)
    (b1 s1 o1 : (⟨1, ![128]⟩ : Shape).Idx → EReal) : (⟨2, ![50000, 256]⟩ : Shape).Idx → EReal := fun i =>
  if h : (i 1).val < 128 then
    ftRow (fun k => feat (ix2 (i 0) k)) (fun k j => W0 (ix2 k j)) (fun j => b0 (ix1 j)) (fun j => s0 (ix1 j))
      (fun j => o0 (ix1 j)) ⟨(i 1).val, h⟩
  else
    ftRow (fun k => hop (ix2 (i 0) k)) (fun k j => W1 (ix2 k j)) (fun j => b1 (ix1 j)) (fun j => s1 (ix1 j))
      (fun j => o1 (ix1 j)) ⟨(i 1).val - 128, by have h1 : (i 1).val < 256 := (i 1).isLt; omega⟩

/-- `G` at a node and a column of the first half. -/
theorem G_left (feat hop : (⟨2, ![50000, 256]⟩ : Shape).Idx → EReal) (W0 : (⟨2, ![256, 128]⟩ : Shape).Idx → EReal)
    (b0 s0 o0 : (⟨1, ![128]⟩ : Shape).Idx → EReal) (W1 : (⟨2, ![256, 128]⟩ : Shape).Idx → EReal)
    (b1 s1 o1 : (⟨1, ![128]⟩ : Shape).Idx → EReal) (r : Fin 50000) (q : Fin 128) (q' : Fin 256) (hq : q'.val = q.val) :
    G feat hop W0 b0 s0 o0 W1 b1 s1 o1 (ix2 r q')
      = ftRow (fun k => feat (ix2 r k)) (fun k j => W0 (ix2 k j)) (fun j => b0 (ix1 j)) (fun j => s0 (ix1 j))
          (fun j => o0 (ix1 j)) q := by
  have hlt : ((ix2 r q' : (⟨2, ![50000, 256]⟩ : Shape).Idx) 1).val < 128 := by
    show q'.val < 128; have := q.isLt; omega
  unfold G
  rw [dif_pos hlt]
  exact congrArg _ (Fin.ext hq)

/-- `G` at a node and a column of the second half. -/
theorem G_right (feat hop : (⟨2, ![50000, 256]⟩ : Shape).Idx → EReal) (W0 : (⟨2, ![256, 128]⟩ : Shape).Idx → EReal)
    (b0 s0 o0 : (⟨1, ![128]⟩ : Shape).Idx → EReal) (W1 : (⟨2, ![256, 128]⟩ : Shape).Idx → EReal)
    (b1 s1 o1 : (⟨1, ![128]⟩ : Shape).Idx → EReal) (r : Fin 50000) (q : Fin 128) (q' : Fin 256) (hq : q'.val = q.val + 128) :
    G feat hop W0 b0 s0 o0 W1 b1 s1 o1 (ix2 r q')
      = ftRow (fun k => hop (ix2 r k)) (fun k j => W1 (ix2 k j)) (fun j => b1 (ix1 j)) (fun j => s1 (ix1 j))
          (fun j => o1 (ix1 j)) q := by
  have hge : ¬ ((ix2 r q' : (⟨2, ![50000, 256]⟩ : Shape).Idx) 1).val < 128 := by
    show ¬ q'.val < 128; omega
  unfold G
  rw [dif_neg hge]
  exact congrArg _ (Fin.ext (by show q'.val - 128 = q.val; omega))

end Cert.Spec

end
-- ==== Proof.LibColumns.lean ====
/-
  Layout facts for a matrix treated one row at a time, for any extents `a` (rows) and `b` (columns): a column
  `[a, 1]` or a vector `[a]` or `[b]` laid against an `[a, b]` matrix reads, at row `p` and column `c`, the entry of
  the column or vector that the row or the column names; and a sum along the columns of row `p` is the sum of that
  row's `b` entries.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

namespace Cert.LibColumns

open Idealize.ShloMosaic Idealize.ShloMosaic.ValueIdx

variable {α : Type}

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's spelling of the same: `broadcast_in_dim` of a column `[a, 1]` along both axes. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` recast as a column `[a, 1]` reads, at `(p, 0)`, the vector at `p`. -/
theorem shapeCast_a_a1_apply {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- The host's spelling: `broadcast_in_dim` of a vector `[a]` to a column `[a, 1]` along axis 0. -/
theorem broadcastInDim_a_a1_apply {a : ℕ} (v : (⟨1, ![a]⟩ : Shape).Idx → α)
    (h : (⟨1, ![a]⟩ : Shape).BroadcastsInDim ⟨2, ![a, 1]⟩ ![0]) (p : Fin a) :
    broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- `broadcast_in_dim` of a vector `[b]` to a one-row matrix `[1, b]` along axis 1 reads, at `(0, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (c : Fin b) :
    broadcastInDim ⟨2, ![1, b]⟩ ![1] h v (ix2 (0 : Fin 1) c) = v (ix1 c) := by
  refine broadcastInDim_apply ![1] h v (ix2 (0 : Fin 1) c) (ix1 c) fun ax => ?_
  match ax with
  | ⟨0, _⟩ =>
    show c.val = if b = 1 then 0 else c.val
    split
    · have := c.isLt; omega
    · rfl

/-- A vector `[b]` recast as a one-row matrix `[1, b]` reads, at `(0, c)`, the vector at `c`. -/
theorem shapeCast_b_1b_apply {b : ℕ} (v : (⟨1, ![b]⟩ : Shape).Idx → α)
    (h : (⟨1, ![b]⟩ : Shape).ShapeCasts ⟨2, ![1, b]⟩) (c : Fin b) :
    shapeCast ⟨2, ![1, b]⟩ v h (ix2 (0 : Fin 1) c) = v (ix1 c) := by
  refine shapeCast_apply v h (ix2 (0 : Fin 1) c) (ix1 c) ?_
  rw [Shape.rowMajor_val_one, Shape.rowMajor_val_two]
  show c.val = 0 * b + c.val
  omega

/-- The index a sum along the columns of row `p` visits at `k` is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- A lane sum along the columns, read at row `p` on the extended reals, is the sum of the row's entries. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum along the columns, read at row `p` on the extended reals: the initial value plus the row's sum. -/
theorem hostReduceAdd_rows {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init ix0 + ∑ k : Fin b, x (ix2 p k) := by
  rw [hostReduceAdd_apply, Ideal.hostReduceAdd_single h' h]
  refine congrArg₂ (· + ·) (congrArg init (eq_ix0 _)) ?_
  exact Finset.sum_congr rfl fun k _ => congrArg x (lift_row h p k)

end Cert.LibColumns
-- ==== Proof.KernelPay.lean ====
/-
  The kernel body's two stored values read at an entry.  The body treats a block of 2000 nodes: from the block of
  feature rows `x`, the weights `W` and the three row vectors `b`, `s`, `o` (each a 1 × 128 block) it computes, for
  node `p` of the block and output `q`, exactly the normalised layer output `Spec.ftRow` of that node's row: the
  matrix product into a zero accumulator is the sum over the 256 features, each lane reduction is the sum over the
  128 outputs of the node, and the changes of float format are the identity on the extended reals.  The second
  stored value is the same function of the block of first-hop rows.
-/
import proofs.«103738_j34849364640474_1_alg».proof.Proof.Gen.KernelIdeal.Skeleton
import proofs.«103738_j34849364640474_1_alg».proof.Proof.Spec
import proofs.«103738_j34849364640474_1_alg».proof.Proof.LibColumns
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx Cert.LibColumns

/-! ## The matrix product of a block of rows with the weights, one entry -/

/-- A left operand's row coordinate is the output's row. -/
theorem lhs_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl

/-- A left operand's column coordinate is the summation index. -/
theorem lhs_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q

/-- A right operand's row coordinate is the summation index. -/
theorem rhs_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q

/-- A right operand's column coordinate is the output's column. -/
theorem rhs_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- The product into a zero accumulator at node `p`, output `q`: the sum over the 256 features. -/
theorem matmul_row (l : FVec Ideal S2000x256 .bf16) (r : FVec Ideal S256x128 .bf16) (p : Fin 2000) (q : Fin 128) :
    matmul dot_S2000x256_S256x128_S2000x128_1_0_0_1_n_n none l r (constant S2000x128 .f32 0x00000000#32) (ix2 p q)
      = ∑ k : Fin 256, l (ix2 p k) * r (ix2 k q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k :=
    funext fun a => Fin.ext (by
      match a with
      | ⟨0, _⟩ => exact lhs_0 _ _
      | ⟨1, _⟩ => exact (lhs_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q :=
    funext fun a => Fin.ext (by
      match a with
      | ⟨0, _⟩ => exact (rhs_0 _ _).trans hk
      | ⟨1, _⟩ => exact rhs_1 _ _)
  rw [el, er]

/-! ## The body's pieces, each read at an entry -/

/-- A 1 × 128 block laid along every node's row. -/
def rowK (v : Vec Ideal S1x128 .f32) : FVec Ideal S2000x128 .f32 :=
  broadcastTo S2000x128 (shapeCast S1x128 v shapeCasts_S1x128_S1x128) broadcasts_S1x128_S2000x128

theorem rowK_apply (v : Vec Ideal S1x128 .f32) (p : Fin 2000) (q : Fin 128) :
    rowK v (ix2 p q) = v (ix2 (0 : Fin 1) q) := by
  unfold rowK
  rw [shapeCast_self]
  exact broadcastTo_1b_ab_apply v _ p q

/-- A per-node column laid along that node's 128 outputs. -/
def colK (v : FVec Ideal S2000x1 .f32) : FVec Ideal S2000x128 .f32 :=
  broadcastTo S2000x128 v broadcasts_S2000x1_S2000x128

theorem colK_apply (v : FVec Ideal S2000x1 .f32) (p : Fin 2000) (q : Fin 128) :
    colK v (ix2 p q) = v (ix2 p (0 : Fin 1)) :=
  broadcastTo_a1_ab_apply v _ p q

/-- The activation `max (x·W + b) 0` of the block. -/
def actK (xb : FVec Ideal S2000x256 .bf16) (W : Vec Ideal S256x128 .f32) (b : Vec Ideal S1x128 .f32) :
    FVec Ideal S2000x128 .f32 :=
  maximumf (addf (matmul dot_S2000x256_S256x128_S2000x128_1_0_0_1_n_n none xb (truncf .bf16 W bitsLt_bf16_f32)
      (constant S2000x128 .f32 0x00000000#32)) (rowK b)) (broadcast S2000x128 (Scalar.ofBits .f32 0x00000000#32))

theorem actK_apply (xb : FVec Ideal S2000x256 .bf16) (W : Vec Ideal S256x128 .f32) (b : Vec Ideal S1x128 .f32)
    (p : Fin 2000) (q : Fin 128) :
    actK xb W b (ix2 p q)
      = Cert.Spec.act (fun k => xb (ix2 p k)) (fun k j => W (ix2 k j)) (fun j => b (ix2 (0 : Fin 1) j)) q := by
  show max (matmul dot_S2000x256_S256x128_S2000x128_1_0_0_1_n_n none xb (truncf .bf16 W bitsLt_bf16_f32)
      (constant S2000x128 .f32 0x00000000#32) (ix2 p q) + rowK b (ix2 p q)) (Ideal.ofBits .f32 0x00000000#32) = _
  rw [matmul_row, rowK_apply, Ideal.ofBits_zero_f32]
  rfl

/-- Each node's mean over its 128 outputs, as a column. -/
def meanK (h : FVec Ideal S2000x128 .f32) : FVec Ideal S2000x1 .f32 :=
  divf (shapeCast S2000x1 (multiReduction .add [1] S2000 h 0x00000000#32 reduces_S2000x128_S2000 (.inl rfl) rfl)
      shapeCasts_S2000_S2000x1) (broadcast S2000x1 (Scalar.ofBits .f32 0x43000000#32))

theorem meanK_apply (h : FVec Ideal S2000x128 .f32) (p : Fin 2000) :
    meanK h (ix2 p (0 : Fin 1)) = Cert.Spec.mean128 (fun l => h (ix2 p l)) := by
  show Ideal.div (shapeCast S2000x1 (multiReduction .add [1] S2000 h 0x00000000#32 reduces_S2000x128_S2000 (.inl rfl) rfl)
      shapeCasts_S2000_S2000x1 (ix2 p (0 : Fin 1))) (Ideal.ofBits .f32 0x43000000#32) = _
  refine congrArg (fun z => Ideal.div z (Ideal.ofBits .f32 0x43000000#32)) ?_
  exact (shapeCast_a_a1_apply _ _ p).trans (multiReduction_add_rows h _ _ _ _ p)

/-- The activation less its node's mean. -/
def centK (h : FVec Ideal S2000x128 .f32) : FVec Ideal S2000x128 .f32 :=
  subf h (colK (meanK h))

theorem centK_apply (h : FVec Ideal S2000x128 .f32) (p : Fin 2000) (q : Fin 128) :
    centK h (ix2 p q) = h (ix2 p q) - Cert.Spec.mean128 (fun l => h (ix2 p l)) := by
  show h (ix2 p q) - colK (meanK h) (ix2 p q) = _
  rw [colK_apply, meanK_apply]

/-- The whole body on one block: the normalised layer output. -/
def bodyK (xb : FVec Ideal S2000x256 .bf16) (W : Vec Ideal S256x128 .f32) (b s o : Vec Ideal S1x128 .f32) :
    FVec Ideal S2000x128 .f32 :=
  addf (mulf (mulf (centK (actK xb W b)) (rowK s))
      (colK (rsqrt (addf (meanK (mulf (centK (actK xb W b)) (centK (actK xb W b))))
        (broadcast S2000x1 (Scalar.ofBits .f32 0x3089705F#32)))))) (rowK o)

theorem bodyK_apply (xb : FVec Ideal S2000x256 .bf16) (W : Vec Ideal S256x128 .f32) (b s o : Vec Ideal S1x128 .f32)
    (p : Fin 2000) (q : Fin 128) :
    bodyK xb W b s o (ix2 p q)
      = Cert.Spec.ftRow (fun k => xb (ix2 p k)) (fun k j => W (ix2 k j)) (fun j => b (ix2 (0 : Fin 1) j))
          (fun j => s (ix2 (0 : Fin 1) j)) (fun j => o (ix2 (0 : Fin 1) j)) q := by
  show centK (actK xb W b) (ix2 p q) * rowK s (ix2 p q)
      * colK (rsqrt (addf (meanK (mulf (centK (actK xb W b)) (centK (actK xb W b))))
          (broadcast S2000x1 (Scalar.ofBits .f32 0x3089705F#32)))) (ix2 p q) + rowK o (ix2 p q) = _
  rw [colK_apply, rowK_apply, rowK_apply, centK_apply]
  show _ * _ * Ideal.rsqrt (meanK (mulf (centK (actK xb W b)) (centK (actK xb W b))) (ix2 p (0 : Fin 1))
      + Ideal.ofBits .f32 0x3089705F#32) + _ = _
  rw [meanK_apply]
  simp only [ValueIdx.mulf_apply, centK_apply, actK_apply]
  rfl

/-- The printed second stored value is that composition. -/
theorem pay1_eq (xb : FVec Ideal S2000x256 .bf16) (W : Vec Ideal S256x128 .f32) (b s o : Vec Ideal S1x128 .f32) :
    k0_pay1 (F := Ideal) xb W b s o = bodyK xb W b s o := rfl

/-- The printed first stored value is the same composition of the block's rows in the narrower float format. -/
theorem pay2_eq (x : Vec Ideal S2000x256 .f32) (W : Vec Ideal S256x128 .f32) (b s o : Vec Ideal S1x128 .f32) :
    k0_pay2 (F := Ideal) x W b s o = bodyK (truncf .bf16 x bitsLt_bf16_f32) W b s o := rfl

/-- The first stored value (columns 0 … 127 of the block) at node `p`, output `q`. -/
theorem pay2_apply (x : Vec Ideal S2000x256 .f32) (W : Vec Ideal S256x128 .f32) (b s o : Vec Ideal S1x128 .f32)
    (p : Fin 2000) (q : Fin 128) :
    k0_pay2 (F := Ideal) x W b s o (ix2 p q)
      = Cert.Spec.ftRow (fun k => x (ix2 p k)) (fun k j => W (ix2 k j)) (fun j => b (ix2 (0 : Fin 1) j))
          (fun j => s (ix2 (0 : Fin 1) j)) (fun j => o (ix2 (0 : Fin 1) j)) q := by
  rw [pay2_eq]
  exact bodyK_apply _ W b s o p q

/-- The second stored value (columns 128 … 255 of the block) at node `p`, output `q`. -/
theorem pay1_apply (x : Vec Ideal S2000x256 .f32) (W : Vec Ideal S256x128 .f32) (b s o : Vec Ideal S1x128 .f32)
    (p : Fin 2000) (q : Fin 128) :
    k0_pay1 (F := Ideal) (k0_pay3 (F := Ideal) x) W b s o (ix2 p q)
      = Cert.Spec.ftRow (fun k => x (ix2 p k)) (fun k j => W (ix2 k j)) (fun j => b (ix2 (0 : Fin 1) j))
          (fun j => s (ix2 (0 : Fin 1) j)) (fun j => o (ix2 (0 : Fin 1) j)) q := by
  rw [pay1_eq]
  have e : k0_pay3 (F := Ideal) x = truncf .bf16 x bitsLt_bf16_f32 := by
    unfold k0_pay3
    rw [shapeCast_self]
  rw [e]
  exact bodyK_apply _ W b s o p q

end Cert.KernelIdeal.Pay

end
-- ==== Proof.KernelBlock.lean ====
/-
  What the body leaves in the result's staging block, entry by entry.  The body stores two half blocks, each 2000
  nodes by 128 outputs: the first layer of the block of feature rows into columns 0 … 127 and the second layer of
  the block of first-hop rows into columns 128 … 255.  The two stores tile the 2000 × 256 block, so at node `p` and
  column `c` the block holds the first layer's output `c` of row `p` when `c < 128` and the second layer's output
  `c − 128` of row `p` otherwise.
-/
import proofs.«103738_j34849364640474_1_alg».proof.Proof.Gen.KernelIdeal.Frame
import proofs.«103738_j34849364640474_1_alg».proof.Proof.KernelPay

noncomputable section

namespace Cert.KernelIdeal.Block

open Cert.KernelIdeal Cert.KernelIdeal.Gen Idealize.ShloMosaic Idealize.ShloMosaic.ValueIdx

/-- The zero offsets of a whole-block load. -/
theorem zeroOff : (![0, 0] : Fin 2 → Nat) = fun _ => 0 := funext fun a => by fin_cases a <;> rfl

/-- The block the two stores leave, as a function of the block entry. -/
def blockFn (x0 x1 : Vec Ideal S2000x256 .f32) (x2 : Vec Ideal S256x128 .f32) (x3 x4 x5 : Vec Ideal S1x128 .f32)
    (x6 : Vec Ideal S256x128 .f32) (x7 x8 x9 : Vec Ideal S1x128 .f32) : S2000x256.Idx → EReal := fun y =>
  if h : (y 1).val < 128 then
    Cert.Spec.ftRow (fun k => x0 (ix2 (y 0) k)) (fun k j => x2 (ix2 k j)) (fun j => x3 (ix2 (0 : Fin 1) j))
      (fun j => x4 (ix2 (0 : Fin 1) j)) (fun j => x5 (ix2 (0 : Fin 1) j)) ⟨(y 1).val, h⟩
  else
    Cert.Spec.ftRow (fun k => x1 (ix2 (y 0) k)) (fun k j => x6 (ix2 k j)) (fun j => x7 (ix2 (0 : Fin 1) j))
      (fun j => x8 (ix2 (0 : Fin 1) j)) (fun j => x9 (ix2 (0 : Fin 1) j))
      ⟨(y 1).val - 128, by have h1 : (y 1).val < 256 := (y 1).isLt; omega⟩

/-- The block function at an entry of the first half. -/
theorem blockFn_left (x0 x1 : Vec Ideal S2000x256 .f32) (x2 : Vec Ideal S256x128 .f32) (x3 x4 x5 : Vec Ideal S1x128 .f32)
    (x6 : Vec Ideal S256x128 .f32) (x7 x8 x9 : Vec Ideal S1x128 .f32) (y : S2000x256.Idx) (p : Fin 2000) (q : Fin 128)
    (hp : (y 0).val = p.val) (hq : (y 1).val = q.val) :
    blockFn x0 x1 x2 x3 x4 x5 x6 x7 x8 x9 y
      = Cert.Spec.ftRow (fun k => x0 (ix2 p k)) (fun k j => x2 (ix2 k j)) (fun j => x3 (ix2 (0 : Fin 1) j))
        (fun j => x4 (ix2 (0 : Fin 1) j)) (fun j => x5 (ix2 (0 : Fin 1) j)) q := by
  have hy : y = ix2 p (⟨q.val, lt_trans q.isLt (by decide : (128 : ℕ) < 256)⟩ : Fin 256) :=
    funext fun a => Fin.ext (by match a with | ⟨0, _⟩ => exact hp | ⟨1, _⟩ => exact hq)
  subst hy
  have hlt : ((ix2 p (⟨q.val, lt_trans q.isLt (by decide : (128 : ℕ) < 256)⟩ : Fin 256) : S2000x256.Idx) 1).val < 128 := by
    show q.val < 128; exact q.isLt
  unfold blockFn
  rw [dif_pos hlt]

/-- The block function at an entry of the second half. -/
theorem blockFn_right (x0 x1 : Vec Ideal S2000x256 .f32) (x2 : Vec Ideal S256x128 .f32) (x3 x4 x5 : Vec Ideal S1x128 .f32)
    (x6 : Vec Ideal S256x128 .f32) (x7 x8 x9 : Vec Ideal S1x128 .f32) (y : S2000x256.Idx) (p : Fin 2000) (q : Fin 128)
    (hp : (y 0).val = p.val) (hq : (y 1).val = q.val + 128) :
    blockFn x0 x1 x2 x3 x4 x5 x6 x7 x8 x9 y
      = Cert.Spec.ftRow (fun k => x1 (ix2 p k)) (fun k j => x6 (ix2 k j)) (fun j => x7 (ix2 (0 : Fin 1) j))
        (fun j => x8 (ix2 (0 : Fin 1) j)) (fun j => x9 (ix2 (0 : Fin 1) j)) q := by
  have hy : y = ix2 p (⟨q.val + 128, (Nat.add_lt_add_right q.isLt 128 : q.val + 128 < 128 + 128)⟩ : Fin 256) :=
    funext fun a => Fin.ext (by match a with | ⟨0, _⟩ => exact hp | ⟨1, _⟩ => exact hq)
  subst hy
  have hge : ¬ ((ix2 p (⟨q.val + 128, (Nat.add_lt_add_right q.isLt 128 : q.val + 128 < 128 + 128)⟩ : Fin 256) : S2000x256.Idx) 1).val < 128 := by
    show ¬ q.val + 128 < 128; omega
  unfold blockFn
  rw [dif_neg hge]
  exact congrArg _ (Fin.ext (by show q.val + 128 - 128 = q.val; omega))

/-- The first store's payload at its local entry `(p, q)` is the block function where the store puts it. -/
theorem piece_left (x0 x1 : Vec Ideal S2000x256 .f32) (x2 : Vec Ideal S256x128 .f32) (x3 x4 x5 : Vec Ideal S1x128 .f32)
    (x6 : Vec Ideal S256x128 .f32) (x7 x8 x9 : Vec Ideal S1x128 .f32) (x : S2000x128.Idx) :
    k0_pay2 (F := Ideal) x0 x2 x3 x4 x5 x = blockFn x0 x1 x2 x3 x4 x5 x6 x7 x8 x9 (r0_3.emb x) := by
  obtain ⟨p, q, rfl⟩ : ∃ (p : Fin 2000) (q : Fin 128), x = ix2 p q := ⟨x 0, x 1, eq_ix2 x⟩
  refine (Pay.pay2_apply x0 x2 x3 x4 x5 p q).trans (blockFn_left x0 x1 x2 x3 x4 x5 x6 x7 x8 x9 _ p q ?_ ?_).symm
  · show 0 + 1 * p.val = p.val; omega
  · show 0 + 1 * q.val = q.val; omega

/-- The second store's payload at its local entry `(p, q)` is the block function at column `q + 128`. -/
theorem piece_right (x0 x1 : Vec Ideal S2000x256 .f32) (x2 : Vec Ideal S256x128 .f32) (x3 x4 x5 : Vec Ideal S1x128 .f32)
    (x6 : Vec Ideal S256x128 .f32) (x7 x8 x9 : Vec Ideal S1x128 .f32) (x : S2000x128.Idx) :
    k0_pay1 (F := Ideal) (k0_pay3 (F := Ideal) x1) x6 x7 x8 x9 x = blockFn x0 x1 x2 x3 x4 x5 x6 x7 x8 x9 (r0_4.emb x) := by
  obtain ⟨p, q, rfl⟩ : ∃ (p : Fin 2000) (q : Fin 128), x = ix2 p q := ⟨x 0, x 1, eq_ix2 x⟩
  refine (Pay.pay1_apply x1 x6 x7 x8 x9 p q).trans (blockFn_right x0 x1 x2 x3 x4 x5 x6 x7 x8 x9 _ p q ?_ ?_).symm
  · show 0 + 1 * p.val = p.val; omega
  · show 128 + 1 * q.val = q.val + 128; omega

/-- The two stores tile the block, so the block after the body is the block function. -/
theorem out_eq (x0 x1 : Vec Ideal S2000x256 .f32) (x2 : Vec Ideal S256x128 .f32) (x3 x4 x5 : Vec Ideal S1x128 .f32)
    (x6 : Vec Ideal S256x128 .f32) (x7 x8 x9 : Vec Ideal S1x128 .f32) :
    out0_10 (F := Ideal) x0 x1 x2 x3 x4 x5 x6 x7 x8 x9 = blockFn x0 x1 x2 x3 x4 x5 x6 x7 x8 x9 := by
  funext y
  unfold out0_10
  simp only [View.ld_unit_zero (S := S2000x256) zeroOff, View.ld_unit_zero (S := S256x128) zeroOff,
    View.ld_unit_zero (S := S1x128) zeroOff]
  refine View.canon_apply_of_pieces (Val := Elt Ideal) (blockFn x0 x1 x2 x3 x4 x5 x6 x7 x8 x9) _ ?_ y (cover0_10 _ _ y)
  intro pc hpc x
  rcases List.mem_cons.mp hpc with rfl | hpc
  · exact piece_right x0 x1 x2 x3 x4 x5 x6 x7 x8 x9 x
  · rcases List.mem_singleton.mp hpc with rfl
    exact piece_left x0 x1 x2 x3 x4 x5 x6 x7 x8 x9 x

theorem out_apply (x0 x1 : Vec Ideal S2000x256 .f32) (x2 : Vec Ideal S256x128 .f32) (x3 x4 x5 : Vec Ideal S1x128 .f32)
    (x6 : Vec Ideal S256x128 .f32) (x7 x8 x9 : Vec Ideal S1x128 .f32) (p : Fin 2000) (c : Fin 256) :
    out0_10 (F := Ideal) x0 x1 x2 x3 x4 x5 x6 x7 x8 x9 (ix2 p c)
      = if h : c.val < 128 then
          Cert.Spec.ftRow (fun k => x0 (ix2 p k)) (fun k j => x2 (ix2 k j)) (fun j => x3 (ix2 (0 : Fin 1) j))
            (fun j => x4 (ix2 (0 : Fin 1) j)) (fun j => x5 (ix2 (0 : Fin 1) j)) ⟨c.val, h⟩
        else
          Cert.Spec.ftRow (fun k => x1 (ix2 p k)) (fun k j => x6 (ix2 k j)) (fun j => x7 (ix2 (0 : Fin 1) j))
            (fun j => x8 (ix2 (0 : Fin 1) j)) (fun j => x9 (ix2 (0 : Fin 1) j))
            ⟨c.val - 128, by have h1 : c.val < 256 := c.isLt; omega⟩ := by
  rw [out_eq]
  rfl

end Cert.KernelIdeal.Block

end
-- ==== Proof.KernelValue.lean ====
/-
  The kernel's result array as one function of the argument arrays.  The launch visits 25 blocks of 2000 nodes;
  at block `t` the body writes, for node `p` of the block, the first layer of feature row `2000·t + p` into columns
  0 … 127 and the second layer of first-hop row `2000·t + p` into columns 128 … 255.  The 25 blocks tile the
  50000 × 256 result, so the array after the run is `Spec.G` of the arguments and the first hop, at every index.

  The steps: what the launch finds in the arrays the host wrote before it (the first hop; the six vectors of 128
  laid as rows of 1 × 128); where each window's block sits at point `t` (block row `t` for the three node arrays,
  the whole array for the weights and the row vectors); each input block's entry as the array's entry at
  block index × block size + local coordinate; the body's result at a block entry as `Spec.G` at the array entry
  under it; and the covering: row `r` lies in the block of point `r / 2000`.
-/
import proofs.«103738_j34849364640474_1_alg».proof.Proof.Gen.KernelIdeal.Value
import proofs.«103738_j34849364640474_1_alg».proof.Proof.KernelHop
import proofs.«103738_j34849364640474_1_alg».proof.Proof.KernelPay
import proofs.«103738_j34849364640474_1_alg».proof.Proof.KernelBlock
import proofs.«103738_j34849364640474_1_alg».proof.Proof.LibColumns

noncomputable section

namespace Cert.KernelIdeal.KV

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What the region finds in the windows the host wrote -/

/-- The second window's array is the first hop of the arguments. -/
theorem V_hop (c : Dev nD) :
    (V m c main_v12 : S50000x256.Idx → EReal) = KTerm.hop (F := Ideal) (m ((c : Thread nD τ).loc main_arg0)) (m ((c : Thread nD τ).loc main_arg9)) (m ((c : Thread nD τ).loc main_arg10)) (m ((c : Thread nD τ).loc main_arg11)) := by
  unfold KTerm.hop KTerm.wrapped
  show StableHlo.after hostOps0 (fun b => m (c, b)) _ = _
  unfold hostOps0
  after_results_simp

/-- Each row vector's array is the argument vector laid as one row of 128. -/
theorem V_v13 (c : Dev nD) :
    (V m c main_v13 : S1x128.Idx → EReal) = shapeCast S1x128 (m ((c : Thread nD τ).loc main_arg2)) shapeCasts_S128_S1x128 := by
  show StableHlo.after hostOps0 (fun b => m (c, b)) _ = _
  unfold hostOps0
  after_results
  rfl
theorem V_v14 (c : Dev nD) :
    (V m c main_v14 : S1x128.Idx → EReal) = shapeCast S1x128 (m ((c : Thread nD τ).loc main_arg3)) shapeCasts_S128_S1x128 := by
  show StableHlo.after hostOps0 (fun b => m (c, b)) _ = _
  unfold hostOps0
  after_results
  rfl
theorem V_v15 (c : Dev nD) :
    (V m c main_v15 : S1x128.Idx → EReal) = shapeCast S1x128 (m ((c : Thread nD τ).loc main_arg4)) shapeCasts_S128_S1x128 := by
  show StableHlo.after hostOps0 (fun b => m (c, b)) _ = _
  unfold hostOps0
  after_results
  rfl
theorem V_v16 (c : Dev nD) :
    (V m c main_v16 : S1x128.Idx → EReal) = shapeCast S1x128 (m ((c : Thread nD τ).loc main_arg6)) shapeCasts_S128_S1x128 := by
  show StableHlo.after hostOps0 (fun b => m (c, b)) _ = _
  unfold hostOps0
  after_results
  rfl
theorem V_v17 (c : Dev nD) :
    (V m c main_v17 : S1x128.Idx → EReal) = shapeCast S1x128 (m ((c : Thread nD τ).loc main_arg7)) shapeCasts_S128_S1x128 := by
  show StableHlo.after hostOps0 (fun b => m (c, b)) _ = _
  unfold hostOps0
  after_results
  rfl
theorem V_v18 (c : Dev nD) :
    (V m c main_v18 : S1x128.Idx → EReal) = shapeCast S1x128 (m ((c : Thread nD τ).loc main_arg8)) shapeCasts_S128_S1x128 := by
  show StableHlo.after hostOps0 (fun b => m (c, b)) _ = _
  unfold hostOps0
  after_results
  rfl

/-! ## The index maps over the 25 points -/

/-- The printed index maps, decided once over the grid: the node blocks (windows 0, 1 and 10) sit at block row `t`,
    block column 0; the weights and the row vectors are whole, at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-! ## A window's block at a point, read entry by entry

Each lemma is over ANY contents `A` of the window's array: the block at point `t` read at a local index is `A` at the
array index the block's rectangle gives, block index × block size + local coordinate on each axis. -/

/-- Node `p` of block `t` of the first window is node `2000·t + p` of its array. -/
theorem blk0_read (A : S50000x256.Idx → EReal) (t : Fin cfg0.N) (p : Fin 2000) (k : Fin 256) (r : Fin 50000)
    (hr : r.val = t.val * 2000 + p.val) :
    (((cfg0.win 0).blk t).view.read (Elt Ideal) A : S2000x256.Idx → EReal) (ix2 p k) = A (ix2 r k) := by
  obtain ⟨e0, e1, -⟩ := idx_facts t
  rw [View.read_apply]
  show A _ = A _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- The same for the second window, the first-hop rows. -/
theorem blk1_read (A : S50000x256.Idx → EReal) (t : Fin cfg0.N) (p : Fin 2000) (k : Fin 256) (r : Fin 50000)
    (hr : r.val = t.val * 2000 + p.val) :
    (((cfg0.win 1).blk t).view.read (Elt Ideal) A : S2000x256.Idx → EReal) (ix2 p k) = A (ix2 r k) := by
  obtain ⟨-, -, e0, e1, -⟩ := idx_facts t
  rw [View.read_apply]
  show A _ = A _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 256 + 1 * k.val = k.val; rw [e1]; omega

/-- The weights are staged whole at every point: the block is the array. -/
theorem blk2_read (A : S256x128.Idx → EReal) (t : Fin cfg0.N) (k : Fin 256) (j : Fin 128) :
    (((cfg0.win 2).blk t).view.read (Elt Ideal) A : S256x128.Idx → EReal) (ix2 k j) = A (ix2 k j) := by
  obtain ⟨-, -, -, -, e0, e1, -⟩ := idx_facts t
  rw [View.read_apply]
  show A _ = A _
  congr 1
  funext a
  apply Fin.ext
  match a with
  | ⟨0, _⟩ => show win0_2.index t (0 : Fin 2) * 256 + 1 * k.val = k.val; rw [e0]; omega
  | ⟨1, _⟩ => show win0_2.index t (1 : Fin 2) * 128 + 1 * j.val = j.val; rw [e1]; omega

theorem blk6_read (A : S256x128.Idx → EReal) (t : Fin cfg0.N) (k : Fin 256) (j : Fin 128) :
    (((cfg0.win 6).blk t).view.read (Elt Ideal) A : S256x128.Idx → EReal) (ix2 k j) = A (ix2 k j) := by
  obtain ⟨-, -, -, -, -, -, -, -, -, -, -, -, e0, e1, -⟩ := idx_facts t
  rw [View.read_apply]
  show A _ = A _
  congr 1
  funext a
  apply Fin.ext
  match a with
  | ⟨0, _⟩ => show win0_6.index t (0 : Fin 2) * 256 + 1 * k.val = k.val; rw [e0]; omega
  | ⟨1, _⟩ => show win0_6.index t (1 : Fin 2) * 128 + 1 * j.val = j.val; rw [e1]; omega

/-- So are the six row vectors. -/
theorem blk3_read (A : S1x128.Idx → EReal) (t : Fin cfg0.N) (j : Fin 128) :
    (((cfg0.win 3).blk t).view.read (Elt Ideal) A : S1x128.Idx → EReal) (ix2 (0 : Fin 1) j) = A (ix2 (0 : Fin 1) j) := by
  obtain ⟨-, -, -, -, -, -, e0, e1, -⟩ := idx_facts t
  rw [View.read_apply]
  show A _ = A _
  congr 1
  funext a
  apply Fin.ext
  match a with
  | ⟨0, _⟩ => show win0_3.index t (0 : Fin 2) * 1 + 1 * 0 = 0; rw [e0]
  | ⟨1, _⟩ => show win0_3.index t (1 : Fin 2) * 128 + 1 * j.val = j.val; rw [e1]; omega

theorem blk4_read (A : S1x128.Idx → EReal) (t : Fin cfg0.N) (j : Fin 128) :
    (((cfg0.win 4).blk t).view.read (Elt Ideal) A : S1x128.Idx → EReal) (ix2 (0 : Fin 1) j) = A (ix2 (0 : Fin 1) j) := by
  obtain ⟨-, -, -, -, -, -, -, -, e0, e1, -⟩ := idx_facts t
  rw [View.read_apply]
  show A _ = A _
  congr 1
  funext a
  apply Fin.ext
  match a with
  | ⟨0, _⟩ => show win0_4.index t (0 : Fin 2) * 1 + 1 * 0 = 0; rw [e0]
  | ⟨1, _⟩ => show win0_4.index t (1 : Fin 2) * 128 + 1 * j.val = j.val; rw [e1]; omega

theorem blk5_read (A : S1x128.Idx → EReal) (t : Fin cfg0.N) (j : Fin 128) :
    (((cfg0.win 5).blk t).view.read (Elt Ideal) A : S1x128.Idx → EReal) (ix2 (0 : Fin 1) j) = A (ix2 (0 : Fin 1) j) := by
  obtain ⟨-, -, -, -, -, -, -, -, -, -, e0, e1, -⟩ := idx_facts t
  rw [View.read_apply]
  show A _ = A _
  congr 1
  funext a
  apply Fin.ext
  match a with
  | ⟨0, _⟩ => show win0_5.index t (0 : Fin 2) * 1 + 1 * 0 = 0; rw [e0]
  | ⟨1, _⟩ => show win0_5.index t (1 : Fin 2) * 128 + 1 * j.val = j.val; rw [e1]; omega

theorem blk7_read (A : S1x128.Idx → EReal) (t : Fin cfg0.N) (j : Fin 128) :
    (((cfg0.win 7).blk t).view.read (Elt Ideal) A : S1x128.Idx → EReal) (ix2 (0 : Fin 1) j) = A (ix2 (0 : Fin 1) j) := by
  obtain ⟨-, -, -, -, -, -, -, -, -, -, -, -, -, -, e0, e1, -⟩ := idx_facts t
  rw [View.read_apply]
  show A _ = A _
  congr 1
  funext a
  apply Fin.ext
  match a with
  | ⟨0, _⟩ => show win0_7.index t (0 : Fin 2) * 1 + 1 * 0 = 0; rw [e0]
  | ⟨1, _⟩ => show win0_7.index t (1 : Fin 2) * 128 + 1 * j.val = j.val; rw [e1]; omega

theorem blk8_read (A : S1x128.Idx → EReal) (t : Fin cfg0.N) (j : Fin 128) :
    (((cfg0.win 8).blk t).view.read (Elt Ideal) A : S1x128.Idx → EReal) (ix2 (0 : Fin 1) j) = A (ix2 (0 : Fin 1) j) := by
  obtain ⟨-, -, -, -, -, -, -, -, -, -, -, -, -, -, -, -, e0, e1, -⟩ := idx_facts t
  rw [View.read_apply]
  show A _ = A _
  congr 1
  funext a
  apply Fin.ext
  match a with
  | ⟨0, _⟩ => show win0_8.index t (0 : Fin 2) * 1 + 1 * 0 = 0; rw [e0]
  | ⟨1, _⟩ => show win0_8.index t (1 : Fin 2) * 128 + 1 * j.val = j.val; rw [e1]; omega

theorem blk9_read (A : S1x128.Idx → EReal) (t : Fin cfg0.N) (j : Fin 128) :
    (((cfg0.win 9).blk t).view.read (Elt Ideal) A : S1x128.Idx → EReal) (ix2 (0 : Fin 1) j) = A (ix2 (0 : Fin 1) j) := by
  obtain ⟨-, -, -, -, -, -, -, -, -, -, -, -, -, -, -, -, -, -, e0, e1, -⟩ := idx_facts t
  rw [View.read_apply]
  show A _ = A _
  congr 1
  funext a
  apply Fin.ext
  match a with
  | ⟨0, _⟩ => show win0_9.index t (0 : Fin 2) * 1 + 1 * 0 = 0; rw [e0]
  | ⟨1, _⟩ => show win0_9.index t (1 : Fin 2) * 128 + 1 * j.val = j.val; rw [e1]; omega

/-! ## What point `t` writes back -/

/-- `Spec.ftRow` of equal rows, weights and vectors. -/
theorem ftRow_congr {x x' : Fin 256 → EReal} {W W' : Fin 256 → Fin 128 → EReal} {b b' s s' o o' : Fin 128 → EReal}
    (hx : ∀ k, x k = x' k) (hW : ∀ k j, W k j = W' k j) (hb : ∀ j, b j = b' j) (hs : ∀ j, s j = s' j)
    (ho : ∀ j, o j = o' j) (q : Fin 128) : Cert.Spec.ftRow x W b s o q = Cert.Spec.ftRow x' W' b' s' o' q := by
  obtain rfl : x = x' := funext hx
  obtain rfl : W = W' := funext fun k => funext (hW k)
  obtain rfl : b = b' := funext hb
  obtain rfl : s = s' := funext hs
  obtain rfl : o = o' := funext ho
  rfl

/-- The result the claim names: `Spec.G` of the arguments and the first hop. -/
abbrev Gm (c : Dev nD) : S50000x256.Idx → EReal :=
  Cert.Spec.G (m ((c : Thread nD τ).loc main_arg0)) (KTerm.hop (F := Ideal) (m ((c : Thread nD τ).loc main_arg0)) (m ((c : Thread nD τ).loc main_arg9)) (m ((c : Thread nD τ).loc main_arg10)) (m ((c : Thread nD τ).loc main_arg11))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Node `p` of the feature block at point `t` is node `2000·t + p` of the features. -/
theorem iblk0_apply (c : Dev nD) (t : Fin cfg0.N) (p : Fin 2000) (k : Fin 256) (r : Fin 50000)
    (hr : r.val = t.val * 2000 + p.val) :
    (iblk m c 0 t : Vec Ideal S2000x256 .f32) (ix2 p k) = (m ((c : Thread nD τ).loc main_arg0) : S50000x256.Idx → EReal) (ix2 r k) :=
  (blk0_read (V m c main_arg0) t p k r hr).trans (congrFun (V_main_arg0 m c) (ix2 r k))

/-- Node `p` of the first-hop block at point `t` is node `2000·t + p` of the first hop of the arguments. -/
theorem iblk1_apply (c : Dev nD) (t : Fin cfg0.N) (p : Fin 2000) (k : Fin 256) (r : Fin 50000)
    (hr : r.val = t.val * 2000 + p.val) :
    (iblk m c 1 t : Vec Ideal S2000x256 .f32) (ix2 p k) = KTerm.hop (F := Ideal) (m ((c : Thread nD τ).loc main_arg0)) (m ((c : Thread nD τ).loc main_arg9)) (m ((c : Thread nD τ).loc main_arg10)) (m ((c : Thread nD τ).loc main_arg11)) (ix2 r k) :=
  (blk1_read (V m c main_v12) t p k r hr).trans (congrFun (V_hop m c) (ix2 r k))

theorem iblk2_apply (c : Dev nD) (t : Fin cfg0.N) (k : Fin 256) (j : Fin 128) :
    (iblk m c 2 t : Vec Ideal S256x128 .f32) (ix2 k j) = (m ((c : Thread nD τ).loc main_arg1) : S256x128.Idx → EReal) (ix2 k j) :=
  (blk2_read (V m c main_arg1) t k j).trans (congrFun (V_main_arg1 m c) (ix2 k j))

theorem iblk6_apply (c : Dev nD) (t : Fin cfg0.N) (k : Fin 256) (j : Fin 128) :
    (iblk m c 6 t : Vec Ideal S256x128 .f32) (ix2 k j) = (m ((c : Thread nD τ).loc main_arg5) : S256x128.Idx → EReal) (ix2 k j) :=
  (blk6_read (V m c main_arg5) t k j).trans (congrFun (V_main_arg5 m c) (ix2 k j))

/-- Entry `j` of a staged row vector is entry `j` of the argument vector. -/
theorem iblk3_apply (c : Dev nD) (t : Fin cfg0.N) (j : Fin 128) :
    (iblk m c 3 t : Vec Ideal S1x128 .f32) (ix2 (0 : Fin 1) j) = (m ((c : Thread nD τ).loc main_arg2) : S128.Idx → EReal) (ix1 j) :=
  ((blk3_read (V m c main_v13) t j).trans (congrFun (V_v13 m c) (ix2 (0 : Fin 1) j))).trans
    (Cert.LibColumns.shapeCast_b_1b_apply _ shapeCasts_S128_S1x128 j)
theorem iblk4_apply (c : Dev nD) (t : Fin cfg0.N) (j : Fin 128) :
    (iblk m c 4 t : Vec Ideal S1x128 .f32) (ix2 (0 : Fin 1) j) = (m ((c : Thread nD τ).loc main_arg3) : S128.Idx → EReal) (ix1 j) :=
  ((blk4_read (V m c main_v14) t j).trans (congrFun (V_v14 m c) (ix2 (0 : Fin 1) j))).trans
    (Cert.LibColumns.shapeCast_b_1b_apply _ shapeCasts_S128_S1x128 j)
theorem iblk5_apply (c : Dev nD) (t : Fin cfg0.N) (j : Fin 128) :
    (iblk m c 5 t : Vec Ideal S1x128 .f32) (ix2 (0 : Fin 1) j) = (m ((c : Thread nD τ).loc main_arg4) : S128.Idx → EReal) (ix1 j) :=
  ((blk5_read (V m c main_v15) t j).trans (congrFun (V_v15 m c) (ix2 (0 : Fin 1) j))).trans
    (Cert.LibColumns.shapeCast_b_1b_apply _ shapeCasts_S128_S1x128 j)
theorem iblk7_apply (c : Dev nD) (t : Fin cfg0.N) (j : Fin 128) :
    (iblk m c 7 t : Vec Ideal S1x128 .f32) (ix2 (0 : Fin 1) j) = (m ((c : Thread nD τ).loc main_arg6) : S128.Idx → EReal) (ix1 j) :=
  ((blk7_read (V m c main_v16) t j).trans (congrFun (V_v16 m c) (ix2 (0 : Fin 1) j))).trans
    (Cert.LibColumns.shapeCast_b_1b_apply _ shapeCasts_S128_S1x128 j)
theorem iblk8_apply (c : Dev nD) (t : Fin cfg0.N) (j : Fin 128) :
    (iblk m c 8 t : Vec Ideal S1x128 .f32) (ix2 (0 : Fin 1) j) = (m ((c : Thread nD τ).loc main_arg7) : S128.Idx → EReal) (ix1 j) :=
  ((blk8_read (V m c main_v17) t j).trans (congrFun (V_v17 m c) (ix2 (0 : Fin 1) j))).trans
    (Cert.LibColumns.shapeCast_b_1b_apply _ shapeCasts_S128_S1x128 j)
theorem iblk9_apply (c : Dev nD) (t : Fin cfg0.N) (j : Fin 128) :
    (iblk m c 9 t : Vec Ideal S1x128 .f32) (ix2 (0 : Fin 1) j) = (m ((c : Thread nD τ).loc main_arg8) : S128.Idx → EReal) (ix1 j) :=
  ((blk9_read (V m c main_v18) t j).trans (congrFun (V_v18 m c) (ix2 (0 : Fin 1) j))).trans
    (Cert.LibColumns.shapeCast_b_1b_apply _ shapeCasts_S128_S1x128 j)

/-- The body's result at point `t`, at local index `j`, is `Spec.G` at the array index `i` of the same column in row
    `2000·t + j 0`: the left half from the feature rows, the right half from the first-hop rows. -/
theorem block_eq (c : Dev nD) (t : Fin cfg0.N) (j : S2000x256.Idx) (i : S50000x256.Idx)
    (hi0 : (i 0).val = t.val * 2000 + (j 0).val) (hi1 : (i 1).val = (j 1).val) :
    out0_10 (iblk m c 0 t) (iblk m c 1 t) (iblk m c 2 t) (iblk m c 3 t) (iblk m c 4 t) (iblk m c 5 t) (iblk m c 6 t) (iblk m c 7 t) (iblk m c 8 t) (iblk m c 9 t) j
      = Gm m c i := by
  obtain ⟨p, q', rfl⟩ : ∃ (p : Fin 2000) (q' : Fin 256), j = ix2 p q' := ⟨j 0, j 1, eq_ix2 j⟩
  obtain ⟨r, qi, rfl⟩ : ∃ (r : Fin 50000) (qi : Fin 256), i = ix2 r qi := ⟨i 0, i 1, eq_ix2 i⟩
  change r.val = t.val * 2000 + p.val at hi0
  change qi.val = q'.val at hi1
  refine (Block.out_apply _ _ _ _ _ _ _ _ _ _ p q').trans ?_
  by_cases h : q'.val < 128
  · rw [dif_pos h]
    refine (ftRow_congr (fun k => iblk0_apply m c t p k r hi0) (fun k j => iblk2_apply m c t k j)
      (fun j => iblk3_apply m c t j) (fun j => iblk4_apply m c t j) (fun j => iblk5_apply m c t j) _).trans ?_
    exact (Cert.Spec.G_left _ _ _ _ _ _ _ _ _ _ r ⟨q'.val, h⟩ qi hi1).symm
  · have h256 : q'.val < 256 := q'.isLt
    rw [dif_neg h]
    refine (ftRow_congr (fun k => iblk1_apply m c t p k r hi0) (fun k j => iblk6_apply m c t k j)
      (fun j => iblk7_apply m c t j) (fun j => iblk8_apply m c t j) (fun j => iblk9_apply m c t j) _).trans ?_
    exact (Cert.Spec.G_right _ _ _ _ _ _ _ _ _ _ r ⟨q'.val - 128, by omega⟩ qi (by show qi.val = q'.val - 128 + 128; omega)).symm

/-- WHAT POINT `t` WRITES BACK is block `t` of `Spec.G` of the arguments and the first hop. -/
theorem flushed_eq (c : Dev nD) (t : Fin cfg0.N) :
    (dats m 0 c).flushed 10 t = ((cfg0.win 10).blk t).view.read (Elt Ideal) (Gm m c) := by
  rw [Value.flushed10]
  obtain ⟨-, -, -, -, -, -, -, -, -, -, -, -, -, -, -, -, -, -, -, -, e0, e1⟩ := idx_facts t
  funext y
  refine block_eq m c t _ _ ?_ ?_
  · show win0_10.index t (0 : Fin 2) * 2000 + 1 * (y 0).val = t.val * 2000 + (y 0).val
    rw [e0]; omega
  · show win0_10.index t (1 : Fin 2) * 256 + 1 * (y 1).val = (y 1).val
    rw [e1]; omega

/-! ## The 25 blocks tile the result -/

/-- An index of the result is in point `t`'s block iff each coordinate is in the block's range on its axis. -/
theorem mem_blk (t : Fin cfg0.N) (i : S50000x256.Idx) :
    i ∈ ((cfg0.win 10).blk t).view.set ↔ ∀ a : Fin 2, win0_10.index t a * S2000x256.size a ≤ (i a).val ∧ (i a).val < win0_10.index t a * S2000x256.size a + S2000x256.size a := by
  show i ∈ ((View.whole main_v19).slice (win0_10.rect t)).set ↔ _
  rw [View.set_slice_whole, Rect.mem_set_unit]
  exact Iff.rfl

/-- Row `r` lies in the block of point `r / 2000`, with all its 256 columns; every point writes its block back. -/
theorem cover (i : S50000x256.Idx) :
    ∃ t : Fin cfg0.N, (cfg0.win 10).flush t = true ∧ i ∈ ((cfg0.win 10).blk t).view.set := by
  have hi0 : (i 0).val < 50000 := (i 0).isLt
  have hi1 : (i 1).val < 256 := (i 1).isLt
  have hN : cfg0.N = 25 := N_0
  have ht : (i 0).val / 2000 < cfg0.N := by rw [hN]; omega
  refine ⟨⟨(i 0).val / 2000, ht⟩, flush0_10 _, ?_⟩
  obtain ⟨-, -, -, -, -, -, -, -, -, -, -, -, -, -, -, -, -, -, -, -, e0, e1⟩ := idx_facts ⟨(i 0).val / 2000, ht⟩
  rw [mem_blk]
  intro a
  match a with
  | ⟨0, _⟩ =>
    show win0_10.index ⟨(i 0).val / 2000, ht⟩ (0 : Fin 2) * 2000 ≤ (i 0).val ∧ (i 0).val < win0_10.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_10.index ⟨(i 0).val / 2000, ht⟩ (1 : Fin 2) * 256 ≤ (i 1).val ∧ (i 1).val < win0_10.index ⟨(i 0).val / 2000, ht⟩ (1 : Fin 2) * 256 + 256
    rw [e1]
    omega

/-- The array after the run is `Spec.G` of the arguments and the first hop. -/
theorem final (c : Dev nD) :
    (dats m 0 c).arrAt 10 cfg0.N = Cert.Spec.G (m ((c : Thread nD τ).loc main_arg0)) (KTerm.hop (F := Ideal) (m ((c : Thread nD τ).loc main_arg0)) (m ((c : Thread nD τ).loc main_arg9)) (m ((c : Thread nD τ).loc main_arg10)) (m ((c : Thread nD τ).loc main_arg11))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 10 (Gm m c) (fun t _ => flushed_eq m c t) cover

/-- The run, read: the result buffer at `Spec.G`, the arguments unchanged. -/
theorem run : θ_run defs (onTc (τ := τ) (main (F := Ideal))) ⟨m, fun _ => 0, ρ⟩ fun r => ∀ c : Dev nD,
      r.2.mem ((c : Thread nD τ).loc main_v19) = Cert.Spec.G (m ((c : Thread nD τ).loc main_arg0)) (KTerm.hop (F := Ideal) (m ((c : Thread nD τ).loc main_arg0)) (m ((c : Thread nD τ).loc main_arg9)) (m ((c : Thread nD τ).loc main_arg10)) (m ((c : Thread nD τ).loc main_arg11))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (run_blocks m ρ)

end Cert.KernelIdeal.KV

end
-- ==== Proof.RefTerm.lean ====
/-
  The reference's result as ONE term of its twelve arguments.

  The graph layer takes node features `feat` (50000 nodes, 256 features each), an edge list (`er` the receiving node,
  `ec` the sending node, `ev` the edge weight; 800000 edges) and two dense layers.  Its first hop is the weighted
  neighbour sum `hop r = Σ_{e : er e = r} ev e · feat (ec e)`: a row gather, a product with the weight, a row
  scatter-add into zeros.  Each dense layer maps a node's 256 features to 128: `h = max (x·W + b) 0`, then the row
  is normalised, `(h − mean h) · s · rsqrt (var h + ε) + o`, mean and variance over the 128 outputs of that node.
  The result sets the layer of `feat` beside the layer of `hop`, 256 columns.

  The definitions below follow the reference's operations one for one (every broadcast, the variance's count
  `128 − 0` and its guard `count > 0` included), so that the run's composed term is this term by unfolding.
-/
import proofs.«103738_j34849364640474_1_alg».proof.Proof.Gen.ReferenceIdeal

noncomputable section

namespace Cert.ReferenceIdeal.Term

open Cert.ReferenceIdeal Cert.ReferenceIdeal.Gen Idealize.ShloMosaic Idealize.ShloMosaic.TcCoe

variable {F : FTy → Type} [FloatOps F]

/-- The sending node of each edge, a negative entry wrapped once by the node count (numpy's indexing). -/
def wrapped (ec : IVec S800000 32) : IVec S800000 32 :=
  select (cmpi .slt ec (broadcastInDim S800000 ![] bcast_S_S800000 (constantI S_ 32 0#32)))
    (addi ec (broadcastInDim S800000 ![] bcast_S_S800000 (constantI S_ 32 50000#32))) ec

/-- The first hop: each edge's weight times its sender's feature row, summed into the receiver's row. -/
def hop (feat : FVec F S50000x256 .f32) (er ec : IVec S800000 32) (ev : FVec F S800000 .f32) : FVec F S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 er)
    (mulf (broadcastInDim S800000x256 ![0, 1] bcast_S800000x1_S800000x256_0_1 (broadcastInDim S800000x1 ![0] bcast_S800000_S800000x1_0 ev))
      (Host.gather gather_S50000x256_S800000x1_S800000x256_1_0_n_n_0_1_1256 feat
        (broadcastInDim S800000x1 ![0] bcast_S800000_S800000x1_0 (wrapped ec))))

/-- A vector of 128 laid along every node's row. -/
def alongRows (v : FVec F S128 .f32) : FVec F S50000x128 .f32 :=
  broadcastInDim S50000x128 ![0, 1] bcast_S1x128_S50000x128_0_1 (broadcastInDim S1x128 ![1] bcast_S128_S1x128_1 v)

/-- A per-node column laid along that node's 128 outputs. -/
def alongCols (v : FVec F S50000x1 .f32) : FVec F S50000x128 .f32 :=
  broadcastInDim S50000x128 ![0, 1] bcast_S50000x1_S50000x128_0_1 v

/-- A scalar at every node. -/
def perNode (v : FVec F S_ .f32) : FVec F S50000x1 .f32 :=
  broadcastInDim S50000x1 ![] bcast_S_S50000x1 v

/-- The dense layer's activation `max (x·W + b) 0`. -/
def act (x : FVec F S50000x256 .f32) (W : FVec F S256x128 .f32) (b : FVec F S128 .f32) : FVec F S50000x128 .f32 :=
  maximumf (addf (Host.dotGeneral dot_S50000x256_S256x128_S50000x128_1_0_0_1_n_n none x W) (alongRows b))
    (broadcastInDim S50000x128 ![] bcast_S_S50000x128 (constant S_ .f32 0x00000000#32))

/-- Each node's sum over its 128 outputs, as a column. -/
def rowSum (h : FVec F S50000x128 .f32) : FVec F S50000x1 .f32 :=
  broadcastInDim S50000x1 ![0] bcast_S50000_S50000x1_0
    (Host.reduceAdd h (constant S_ .f32 0x00000000#32) reducesTo_S50000x128_S50000_d1 h_S_)

/-- Each node's mean: its sum over 128. -/
def rowMean (h : FVec F S50000x128 .f32) : FVec F S50000x1 .f32 :=
  Host.divf (rowSum h) (perNode (constant S_ .f32 0x43000000#32))

/-- The activation less its node's mean. -/
def centered (h : FVec F S50000x128 .f32) : FVec F S50000x128 .f32 :=
  subf h (alongCols (rowMean h))

/-- What the variance divides by: 128 less zero degrees of freedom. -/
def count : FVec F S_ .f32 :=
  subf (constant S_ .f32 0x43000000#32) (sitofp .f32 (constantI S_ 32 0#32))

/-- Each node's population variance: the mean square of the centred row, guarded by `count > 0`. -/
def rowVar (h : FVec F S50000x128 .f32) : FVec F S50000x1 .f32 :=
  select (broadcastInDim S50000x1 ![] bcast_S_S50000x1 (cmpf .ogt (count (F := F)) (constant (F := F) S_ .f32 0x00000000#32)))
    (Host.divf (rowSum (mulf (centered h) (centered h))) (perNode (count (F := F))))
    (perNode (id (constant S_ .f32 0x7FC00000#32)))

/-- One dense layer with its row normalisation. -/
def layer (x : FVec F S50000x256 .f32) (W : FVec F S256x128 .f32) (b s o : FVec F S128 .f32) : FVec F S50000x128 .f32 :=
  addf (mulf (mulf (centered (act x W b)) (alongRows s))
      (alongCols (Host.rsqrt (addf (rowVar (act x W b)) (perNode (constant S_ .f32 0x3089705F#32))))))
    (alongRows o)

/-- The reference's result: the layer of the features beside the layer of the first hop. -/
def out (feat : FVec F S50000x256 .f32) (W0 : FVec F S256x128 .f32) (b0 s0 o0 : FVec F S128 .f32)
    (W1 : FVec F S256x128 .f32) (b1 s1 o1 : FVec F S128 .f32) (er ec : IVec S800000 32) (ev : FVec F S800000 .f32) :
    FVec F S50000x256 .f32 :=
  concatenate S50000x256 1 [⟨S50000x128, layer feat W0 b0 s0 o0⟩, ⟨S50000x128, layer (hop feat er ec ev) W1 b1 s1 o1⟩]
    concatenates_S50000x128_S50000x128_S50000x256_d1

end Cert.ReferenceIdeal.Term

end
-- ==== Proof.RefRun.lean ====
/-
  The reference's run: every weakly fair execution of its host program ends, and ends with the result buffer
  holding `Term.out` of the twelve argument arrays as launched, the arguments unchanged.

  @main is a straight line of host operations once each call is replaced by its callee's body: `ops` lists them,
  `main_eq` says @main is that line, and the line's run leaves every buffer at the fold `after ops` of the
  operations' results over the launch contents.  The fold at the result buffer is `Term.out` of the contents of the
  argument buffers (`out_eq`), and at an argument buffer it is what was there (`arg0_eq` … `arg11_eq`): no operation
  writes an argument.
-/
import proofs.«103738_j34849364640474_1_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 119 operations in order of execution, each call replaced by the callee's operations over that call's
    buffers.  Operations 1 … 16 are the first hop: the senders wrapped once by the node count (2 … 8), their feature
    rows gathered (9, 10), each multiplied by its edge's weight (1, 11, 12), and the products summed into the
    receivers' rows of a zero array (13 … 16).  Operations 17 … 67 are the layer of the features: the product with
    the weights plus the bias (17 … 20), `relu`'s three (21 … 23), the row mean (24 … 29), the integer zero `_var` is called with (30), `_var`'s
    twenty-three (31 … 53: the mean again, the centred row, its square, the count `128 − 0`, the mean square, the comparison
    `count > 0`, and `_where`'s three: the not-a-number converted, broadcast, the select), the small constant added
    (54 … 56), and the normalisation: centre, scale, the reciprocal root, offset (57 … 67).  Operations 68 … 118 are
    the same layer on the first hop with the second set of parameters, and 119 sets the two layers side by side. -/
abbrev ops : List (HloOp τ sig (Elt F)) :=
  [ unary main_arg11 main_v0 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v1 (broadcastInDim S800000 ![] bcast_S_S800000 : (⟨S_, .i32⟩ : BufTy).Contents (Elt F) → (⟨S800000, .i32⟩ : BufTy).Contents (Elt F)),
    binary main_arg10 main_v1 main_v2 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v3 (broadcastInDim S800000 ![] bcast_S_S800000 : (⟨S_, .i32⟩ : BufTy).Contents (Elt F) → (⟨S800000, .i32⟩ : BufTy).Contents (Elt F)),
    binary main_arg10 main_v3 main_v4 (addi : (⟨S800000, .i32⟩ : BufTy).Contents (Elt F) → (⟨S800000, .i32⟩ : BufTy).Contents (Elt F) → (⟨S800000, .i32⟩ : BufTy).Contents (Elt F)),
    ternary main_v2 main_v4 main_arg10 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v5 main_v6 (broadcastInDim S800000x1 ![0] bcast_S800000_S800000x1_0 : (⟨S800000, .i32⟩ : BufTy).Contents (Elt F) → (⟨S800000x1, .i32⟩ : BufTy).Contents (Elt F)),
    binary main_arg0 main_v6 main_v7 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v0 main_v8 (broadcastInDim S800000x256 ![0, 1] bcast_S800000x1_S800000x256_0_1 : (⟨S800000x1, .f32⟩ : BufTy).Contents (Elt F) → (⟨S800000x256, .f32⟩ : BufTy).Contents (Elt F)),
    binary main_v8 main_v7 main_v9 (mulf : (⟨S800000x256, .f32⟩ : BufTy).Contents (Elt F) → (⟨S800000x256, .f32⟩ : BufTy).Contents (Elt F) → (⟨S800000x256, .f32⟩ : BufTy).Contents (Elt F)),
    nullary main_cst (constant S_ .f32 0x00000000#32),
    unary main_cst main_v10 (broadcastInDim S50000x256 ![] bcast_S_S50000x256 : (⟨S_, .f32⟩ : BufTy).Contents (Elt F) → (⟨S50000x256, .f32⟩ : BufTy).Contents (Elt F)),
    unary main_arg9 main_v11 (broadcastInDim S800000x1 ![0] bcast_S800000_S800000x1_0 : (⟨S800000, .i32⟩ : BufTy).Contents (Elt F) → (⟨S800000x1, .i32⟩ : BufTy).Contents (Elt F)),
    ternary main_v10 main_v11 main_v9 main_v12 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_arg0 main_arg1 main_v13 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg2 main_v14 (broadcastInDim S1x128 ![1] bcast_S128_S1x128_1 : (⟨S128, .f32⟩ : BufTy).Contents (Elt F) → (⟨S1x128, .f32⟩ : BufTy).Contents (Elt F)),
    unary main_v14 main_v15 (broadcastInDim S50000x128 ![0, 1] bcast_S1x128_S50000x128_0_1 : (⟨S1x128, .f32⟩ : BufTy).Contents (Elt F) → (⟨S50000x128, .f32⟩ : BufTy).Contents (Elt F)),
    binary main_v13 main_v15 main_v16 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v16) main_call0.v0 main_call0.v1 maximumf,
    nullary main_cst_1 (constant S_ .f32 0x00000000#32),
    binary main_v17 main_cst_1 main_v18 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v18 main_v19 (broadcastInDim S50000x1 ![0] bcast_S50000_S50000x1_0 : (⟨S50000, .f32⟩ : BufTy).Contents (Elt F) → (⟨S50000x1, .f32⟩ : BufTy).Contents (Elt F)),
    nullary main_cst_2 (constant S_ .f32 0x43000000#32),
    unary main_cst_2 main_v20 (broadcastInDim S50000x1 ![] bcast_S_S50000x1 : (⟨S_, .f32⟩ : BufTy).Contents (Elt F) → (⟨S50000x1, .f32⟩ : BufTy).Contents (Elt F)),
    binary main_v19 main_v20 main_v21 (Host.divf : (⟨S50000x1, .f32⟩ : BufTy).Contents (Elt F) → (⟨S50000x1, .f32⟩ : BufTy).Contents (Elt F) → (⟨S50000x1, .f32⟩ : BufTy).Contents (Elt F)),
    nullary main_c_3 (constantI S_ 32 0#32),
    TRef.nullary main_call1.cst (constant S_ .f32 0x00000000#32),
    TRef.binary (.of main_v17) main_call1.cst main_call1.v0 (fun x v => Host.reduceAdd x v reducesTo_S50000x128_S50000_d1 h_S_),
    TRef.unary main_call1.v0 main_call1.v1 (broadcastInDim S50000x1 ![0] bcast_S50000_S50000x1_0),
    TRef.nullary main_call1.cst_0 (constant S_ .f32 0x43000000#32),
    TRef.unary main_call1.cst_0 main_call1.v2 (broadcastInDim S50000x1 ![] bcast_S_S50000x1),
    TRef.binary main_call1.v1 main_call1.v2 main_call1.v3 Host.divf,
    TRef.unary main_call1.v3 main_call1.v4 (broadcastInDim S50000x128 ![0, 1] bcast_S50000x1_S50000x128_0_1),
    TRef.binary (.of main_v17) main_call1.v4 main_call1.v5 subf,
    TRef.binary main_call1.v5 main_call1.v5 main_call1.v6 mulf,
    TRef.unary (.of main_c_3) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S50000_d1 h_S_),
    TRef.unary main_call1.v9 main_call1.v10 (broadcastInDim S50000x1 ![0] bcast_S50000_S50000x1_0),
    TRef.unary main_call1.v8 main_call1.v11 (broadcastInDim S50000x1 ![] bcast_S_S50000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S50000x1 ![] bcast_S_S50000x1),
    TRef.ternary main_call1.v13 main_call1.v12 main_call1.call0.v1 main_call1.call0.v2 (fun p a b => select (broadcastInDim S50000x1 ![] bcast_S_S50000x1 p) a b),
    nullary main_cst_4 (constant S_ .f32 0x3089705F#32),
    unary main_cst_4 main_v23 (broadcastInDim S50000x1 ![] bcast_S_S50000x1 : (⟨S_, .f32⟩ : BufTy).Contents (Elt F) → (⟨S50000x1, .f32⟩ : BufTy).Contents (Elt F)),
    binary main_v22 main_v23 main_v24 (addf : (⟨S50000x1, .f32⟩ : BufTy).Contents (Elt F) → (⟨S50000x1, .f32⟩ : BufTy).Contents (Elt F) → (⟨S50000x1, .f32⟩ : BufTy).Contents (Elt F)),
    unary main_v21 main_v25 (broadcastInDim S50000x128 ![0, 1] bcast_S50000x1_S50000x128_0_1 : (⟨S50000x1, .f32⟩ : BufTy).Contents (Elt F) → (⟨S50000x128, .f32⟩ : BufTy).Contents (Elt F)),
    binary main_v17 main_v25 main_v26 (subf : (⟨S50000x128, .f32⟩ : BufTy).Contents (Elt F) → (⟨S50000x128, .f32⟩ : BufTy).Contents (Elt F) → (⟨S50000x128, .f32⟩ : BufTy).Contents (Elt F)),
    unary main_arg3 main_v27 (broadcastInDim S1x128 ![1] bcast_S128_S1x128_1 : (⟨S128, .f32⟩ : BufTy).Contents (Elt F) → (⟨S1x128, .f32⟩ : BufTy).Contents (Elt F)),
    unary main_v27 main_v28 (broadcastInDim S50000x128 ![0, 1] bcast_S1x128_S50000x128_0_1 : (⟨S1x128, .f32⟩ : BufTy).Contents (Elt F) → (⟨S50000x128, .f32⟩ : BufTy).Contents (Elt F)),
    binary main_v26 main_v28 main_v29 (mulf : (⟨S50000x128, .f32⟩ : BufTy).Contents (Elt F) → (⟨S50000x128, .f32⟩ : BufTy).Contents (Elt F) → (⟨S50000x128, .f32⟩ : BufTy).Contents (Elt F)),
    unary main_v24 main_v30 (Host.rsqrt : (⟨S50000x1, .f32⟩ : BufTy).Contents (Elt F) → (⟨S50000x1, .f32⟩ : BufTy).Contents (Elt F)),
    unary main_v30 main_v31 (broadcastInDim S50000x128 ![0, 1] bcast_S50000x1_S50000x128_0_1 : (⟨S50000x1, .f32⟩ : BufTy).Contents (Elt F) → (⟨S50000x128, .f32⟩ : BufTy).Contents (Elt F)),
    binary main_v29 main_v31 main_v32 (mulf : (⟨S50000x128, .f32⟩ : BufTy).Contents (Elt F) → (⟨S50000x128, .f32⟩ : BufTy).Contents (Elt F) → (⟨S50000x128, .f32⟩ : BufTy).Contents (Elt F)),
    unary main_arg4 main_v33 (broadcastInDim S1x128 ![1] bcast_S128_S1x128_1 : (⟨S128, .f32⟩ : BufTy).Contents (Elt F) → (⟨S1x128, .f32⟩ : BufTy).Contents (Elt F)),
    unary main_v33 main_v34 (broadcastInDim S50000x128 ![0, 1] bcast_S1x128_S50000x128_0_1 : (⟨S1x128, .f32⟩ : BufTy).Contents (Elt F) → (⟨S50000x128, .f32⟩ : BufTy).Contents (Elt F)),
    binary main_v32 main_v34 main_v35 (addf : (⟨S50000x128, .f32⟩ : BufTy).Contents (Elt F) → (⟨S50000x128, .f32⟩ : BufTy).Contents (Elt F) → (⟨S50000x128, .f32⟩ : BufTy).Contents (Elt F)),
    binary main_v12 main_arg5 main_v36 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg6 main_v37 (broadcastInDim S1x128 ![1] bcast_S128_S1x128_1 : (⟨S128, .f32⟩ : BufTy).Contents (Elt F) → (⟨S1x128, .f32⟩ : BufTy).Contents (Elt F)),
    unary main_v37 main_v38 (broadcastInDim S50000x128 ![0, 1] bcast_S1x128_S50000x128_0_1 : (⟨S1x128, .f32⟩ : BufTy).Contents (Elt F) → (⟨S50000x128, .f32⟩ : BufTy).Contents (Elt F)),
    binary main_v36 main_v38 main_v39 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v39) main_call2.v0 main_call2.v1 maximumf,
    nullary main_cst_5 (constant S_ .f32 0x00000000#32),
    binary main_v40 main_cst_5 main_v41 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v41 main_v42 (broadcastInDim S50000x1 ![0] bcast_S50000_S50000x1_0 : (⟨S50000, .f32⟩ : BufTy).Contents (Elt F) → (⟨S50000x1, .f32⟩ : BufTy).Contents (Elt F)),
    nullary main_cst_6 (constant S_ .f32 0x43000000#32),
    unary main_cst_6 main_v43 (broadcastInDim S50000x1 ![] bcast_S_S50000x1 : (⟨S_, .f32⟩ : BufTy).Contents (Elt F) → (⟨S50000x1, .f32⟩ : BufTy).Contents (Elt F)),
    binary main_v42 main_v43 main_v44 (Host.divf : (⟨S50000x1, .f32⟩ : BufTy).Contents (Elt F) → (⟨S50000x1, .f32⟩ : BufTy).Contents (Elt F) → (⟨S50000x1, .f32⟩ : BufTy).Contents (Elt F)),
    nullary main_c_7 (constantI S_ 32 0#32),
    TRef.nullary main_call3.cst (constant S_ .f32 0x00000000#32),
    TRef.binary (.of main_v40) main_call3.cst main_call3.v0 (fun x v => Host.reduceAdd x v reducesTo_S50000x128_S50000_d1 h_S_),
    TRef.unary main_call3.v0 main_call3.v1 (broadcastInDim S50000x1 ![0] bcast_S50000_S50000x1_0),
    TRef.nullary main_call3.cst_0 (constant S_ .f32 0x43000000#32),
    TRef.unary main_call3.cst_0 main_call3.v2 (broadcastInDim S50000x1 ![] bcast_S_S50000x1),
    TRef.binary main_call3.v1 main_call3.v2 main_call3.v3 Host.divf,
    TRef.unary main_call3.v3 main_call3.v4 (broadcastInDim S50000x128 ![0, 1] bcast_S50000x1_S50000x128_0_1),
    TRef.binary (.of main_v40) main_call3.v4 main_call3.v5 subf,
    TRef.binary main_call3.v5 main_call3.v5 main_call3.v6 mulf,
    TRef.unary (.of main_c_7) main_call3.v7 (sitofp .f32),
    TRef.nullary main_call3.cst_1 (constant S_ .f32 0x43000000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x128_S50000_d1 h_S_),
    TRef.unary main_call3.v9 main_call3.v10 (broadcastInDim S50000x1 ![0] bcast_S50000_S50000x1_0),
    TRef.unary main_call3.v8 main_call3.v11 (broadcastInDim S50000x1 ![] bcast_S_S50000x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S50000x1 ![] bcast_S_S50000x1),
    TRef.ternary main_call3.v13 main_call3.v12 main_call3.call0.v1 main_call3.call0.v2 (fun p a b => select (broadcastInDim S50000x1 ![] bcast_S_S50000x1 p) a b),
    nullary main_cst_8 (constant S_ .f32 0x3089705F#32),
    unary main_cst_8 main_v46 (broadcastInDim S50000x1 ![] bcast_S_S50000x1 : (⟨S_, .f32⟩ : BufTy).Contents (Elt F) → (⟨S50000x1, .f32⟩ : BufTy).Contents (Elt F)),
    binary main_v45 main_v46 main_v47 (addf : (⟨S50000x1, .f32⟩ : BufTy).Contents (Elt F) → (⟨S50000x1, .f32⟩ : BufTy).Contents (Elt F) → (⟨S50000x1, .f32⟩ : BufTy).Contents (Elt F)),
    unary main_v44 main_v48 (broadcastInDim S50000x128 ![0, 1] bcast_S50000x1_S50000x128_0_1 : (⟨S50000x1, .f32⟩ : BufTy).Contents (Elt F) → (⟨S50000x128, .f32⟩ : BufTy).Contents (Elt F)),
    binary main_v40 main_v48 main_v49 (subf : (⟨S50000x128, .f32⟩ : BufTy).Contents (Elt F) → (⟨S50000x128, .f32⟩ : BufTy).Contents (Elt F) → (⟨S50000x128, .f32⟩ : BufTy).Contents (Elt F)),
    unary main_arg7 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (mulf : (⟨S50000x128, .f32⟩ : BufTy).Contents (Elt F) → (⟨S50000x128, .f32⟩ : BufTy).Contents (Elt F) → (⟨S50000x128, .f32⟩ : BufTy).Contents (Elt F)),
    unary main_v47 main_v53 (Host.rsqrt : (⟨S50000x1, .f32⟩ : BufTy).Contents (Elt F) → (⟨S50000x1, .f32⟩ : BufTy).Contents (Elt F)),
    unary main_v53 main_v54 (broadcastInDim S50000x128 ![0, 1] bcast_S50000x1_S50000x128_0_1 : (⟨S50000x1, .f32⟩ : BufTy).Contents (Elt F) → (⟨S50000x128, .f32⟩ : BufTy).Contents (Elt F)),
    binary main_v52 main_v54 main_v55 (mulf : (⟨S50000x128, .f32⟩ : BufTy).Contents (Elt F) → (⟨S50000x128, .f32⟩ : BufTy).Contents (Elt F) → (⟨S50000x128, .f32⟩ : BufTy).Contents (Elt F)),
    unary main_arg8 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v55 main_v57 main_v58 (addf : (⟨S50000x128, .f32⟩ : BufTy).Contents (Elt F) → (⟨S50000x128, .f32⟩ : BufTy).Contents (Elt F) → (⟨S50000x128, .f32⟩ : BufTy).Contents (Elt F)),
    binary main_v35 main_v58 main_v59 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)) ]

-- 119 binds re-associated: the rewrite under the chain recurses once per statement
set_option maxRecDepth 4096 in
/-- @main is that straight line: with the two halves of @main, the functions' definitions at their calls and the
    records at their fields unfolded, both sides are one chain of `hlo` steps once sequencing is reassociated
    (`bind_assoc`, `pure_bind`). -/
theorem main_eq (c : Dev nD) : main (F := F) c = seq ops := by
  simp only [main, main_part0, main_part1, fn_relu.body, fn_var.body, fn_where.body, seq, bind_assoc, pure_bind]

attribute [local irreducible] Host.reduceAdd Host.gather Host.scatterAdd in
set_option maxRecDepth 16384 in
set_option maxHeartbeats 4000000 in
/-- The fold at the result buffer is `Term.out` of the arguments' contents, by computation: the fold unrolled
    (`after_cons`), each operation's `HloOp.result` decides whether the buffer read is the one it writes, and the
    typed references' transports are the identity at these literal references; on the other side `Term.out` unfolds
    to the same operations in the same order.  The row sums, the gather and the scatter-add stay closed meanwhile:
    the equation never looks inside them, it only meets each with equal operands on both sides. -/
theorem out_eq (V : Valuation τ sig (Elt F)) :
    after ops V (main_v59 : DevRef τ sig) = Term.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  simp only [after_cons, after_nil]
  rfl

/-! No operation writes an argument buffer: each keeps its contents through the fold. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem arg8_eq (V : Valuation τ sig (Elt F)) :
    after ops V (main_arg8 : DevRef τ sig) = V (main_arg8 : DevRef τ sig) := by
  simp only [after_cons, after_nil]
  rfl

theorem arg9_eq (V : Valuation τ sig (Elt F)) :
    after ops V (main_arg9 : DevRef τ sig) = V (main_arg9 : DevRef τ sig) := by
  simp only [after_cons, after_nil]
  rfl

theorem arg10_eq (V : Valuation τ sig (Elt F)) :
    after ops V (main_arg10 : DevRef τ sig) = V (main_arg10 : DevRef τ sig) := by
  simp only [after_cons, after_nil]
  rfl

theorem arg11_eq (V : Valuation τ sig (Elt F)) :
    after ops V (main_arg11 : DevRef τ sig) = V (main_arg11 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., nullary_bufs_sub ..,
    unary_bufs_sub .., binary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., nullary_bufs_sub .., unary_bufs_sub .., binary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub ..⟩

/-- On every device, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The run read at the result buffer and at the twelve arguments: the fold there is `Term.out` of the launch
    contents, and the launch contents themselves. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = Term.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v59).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_main m ρ)

end Cert.ReferenceIdeal.HandRun

end
-- ==== Proof.RefValue.lean ====
/-
  The reference's result read at an index.  For node `r` and column `c` the term `Term.out` is `Spec.G`: every
  broadcast names the row or the column it copies, the host's matrix product is the sum over the 256 features,
  its row sums are the initial zero plus the sum over the node's 128 outputs, the variance's count `128 − 0` is 128
  and positive, so its guard takes the quotient, and the concatenation puts the first layer in columns 0 … 127 and
  the second in columns 128 … 255.
-/
import proofs.«103738_j34849364640474_1_alg».proof.Proof.RefTerm
import proofs.«103738_j34849364640474_1_alg».proof.Proof.Spec
import proofs.«103738_j34849364640474_1_alg».proof.Proof.LibColumns
import Idealize.ShloMosaic.Lib.KernelVsHost

noncomputable section

namespace Cert.ReferenceIdeal.RefValue

open Cert.ReferenceIdeal Cert.ReferenceIdeal.Gen Cert.ReferenceIdeal.Term Idealize.ShloMosaic Idealize.ShloMosaic.ValueIdx
open Cert.LibColumns

/-! ## The host's matrix product of all rows with the weights, one entry -/

theorem lhs_0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide),
    dif_pos (show (0 : Fin S50000x256.rank) ∈ dot_S50000x256_S256x128_S50000x128_1_0_0_1_n_n.lhsNonContracting by decide)]
  rfl

theorem lhs_1 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q

theorem rhs_0 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q

theorem rhs_1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide),
    dif_pos (show (1 : Fin S256x128.rank) ∈ dot_S50000x256_S256x128_S50000x128_1_0_0_1_n_n.rhsNonContracting by decide)]
  rfl

/-- The host's product at node `p`, output `q`: the sum over the 256 features. -/
theorem dot_row (l : FVec Ideal S50000x256 .f32) (r : FVec Ideal S256x128 .f32) (p : Fin 50000) (q : Fin 128) :
    Host.dotGeneral dot_S50000x256_S256x128_S50000x128_1_0_0_1_n_n none l r (ix2 p q) = ∑ k : Fin 256, l (ix2 p k) * r (ix2 k q) := by
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx (ix2 p q) ((ValueIdx.contrEquiv1 dot_S50000x256_S256x128_S50000x128_1_0_0_1_n_n 256 rfl rfl).symm k) = ix2 p k :=
    funext fun a => Fin.ext (by
      match a with
      | ⟨0, _⟩ => exact lhs_0 _ _
      | ⟨1, _⟩ => exact (lhs_1 _ _).trans hk)
  have er : dot_S50000x256_S256x128_S50000x128_1_0_0_1_n_n.rhsIdx (ix2 p q) ((ValueIdx.contrEquiv1 dot_S50000x256_S256x128_S50000x128_1_0_0_1_n_n 256 rfl rfl).symm k) = ix2 k q :=
    funext fun a => Fin.ext (by
      match a with
      | ⟨0, _⟩ => exact (rhs_0 _ _).trans hk
      | ⟨1, _⟩ => exact rhs_1 _ _)
  rw [el, er]

/-! ## The two constants the variance's guard looks at -/

/-- The f32 word `0x43000000` denotes the real 128. -/
theorem ofBits_128 : Ideal.ofBits .f32 0x43000000#32 = ((128 : ℝ) : EReal) := by
  simp [Ideal.ofBits, Ideal.ieee, -EReal.coe_mul]; norm_num

/-- The variance's count, 128 less the integer zero converted, is the word of 128. -/
theorem count_eq : (count (F := Ideal)) ix0 = Ideal.ofBits .f32 0x43000000#32 := by
  show Ideal.ofBits .f32 0x43000000#32 - (Scalar.sitofp .f32 0#32 : Ideal .f32) = _
  rw [sitofp_zero, sub_zero]

/-- The count is above zero, so the guard's bit is set. -/
theorem count_pos : FloatOps.cmpf .ogt ((count (F := Ideal)) ix0) (Ideal.ofBits .f32 0x00000000#32) = 1#1 := by
  rw [count_eq, ofBits_128, Ideal.ofBits_zero_f32]
  show BitVec.ofBool (decide ((0 : EReal) < ((128 : ℝ) : EReal))) = 1#1
  rw [decide_eq_true (by exact_mod_cast (by norm_num : (0 : ℝ) < 128))]
  rfl

/-! ## The term's pieces, each read at an entry -/

theorem alongRows_apply (v : FVec Ideal S128 .f32) (p : Fin 50000) (q : Fin 128) :
    alongRows v (ix2 p q) = v (ix1 q) := by
  unfold alongRows
  rw [broadcastInDim_oneRow_apply, broadcastInDim_b_1b_apply]

theorem alongCols_apply (v : FVec Ideal S50000x1 .f32) (p : Fin 50000) (q : Fin 128) :
    alongCols v (ix2 p q) = v (ix2 p (0 : Fin 1)) :=
  broadcastInDim_a1_ab_apply v _ p q

theorem perNode_apply (v : FVec Ideal S_ .f32) (i : S50000x1.Idx) : perNode v i = v ix0 :=
  broadcastInDim_scalar_apply _ v i

theorem act_apply (x : FVec Ideal S50000x256 .f32) (W : FVec Ideal S256x128 .f32) (b : FVec Ideal S128 .f32)
    (p : Fin 50000) (q : Fin 128) :
    Term.act x W b (ix2 p q)
      = Cert.Spec.act (fun k => x (ix2 p k)) (fun k j => W (ix2 k j)) (fun j => b (ix1 j)) q := by
  show max (Host.dotGeneral dot_S50000x256_S256x128_S50000x128_1_0_0_1_n_n none x W (ix2 p q) + alongRows b (ix2 p q))
      (broadcastInDim S50000x128 ![] bcast_S_S50000x128 (constant (F := Ideal) S_ .f32 0x00000000#32) (ix2 p q)) = _
  rw [dot_row, alongRows_apply, broadcastInDim_scalar_apply]
  show max _ (Ideal.ofBits .f32 0x00000000#32) = _
  rw [Ideal.ofBits_zero_f32]
  rfl

theorem rowSum_apply (h : FVec Ideal S50000x128 .f32) (p : Fin 50000) :
    rowSum h (ix2 p (0 : Fin 1)) = ∑ l : Fin 128, h (ix2 p l) := by
  unfold rowSum
  rw [broadcastInDim_a_a1_apply, hostReduceAdd_rows h _ _ (by decide) _ p]
  show Ideal.ofBits .f32 0x00000000#32 + _ = _
  rw [Ideal.ofBits_zero_f32, zero_add]

theorem rowMean_apply (h : FVec Ideal S50000x128 .f32) (p : Fin 50000) :
    rowMean h (ix2 p (0 : Fin 1)) = Cert.Spec.mean128 (fun l => h (ix2 p l)) := by
  show Ideal.div (rowSum h (ix2 p (0 : Fin 1))) (perNode (constant (F := Ideal) S_ .f32 0x43000000#32) (ix2 p (0 : Fin 1))) = _
  rw [rowSum_apply, perNode_apply]
  rfl

theorem centered_apply (h : FVec Ideal S50000x128 .f32) (p : Fin 50000) (q : Fin 128) :
    centered h (ix2 p q) = h (ix2 p q) - Cert.Spec.mean128 (fun l => h (ix2 p l)) := by
  show h (ix2 p q) - alongCols (rowMean h) (ix2 p q) = _
  rw [alongCols_apply, rowMean_apply]

theorem rowVar_apply (h : FVec Ideal S50000x128 .f32) (p : Fin 50000) :
    rowVar h (ix2 p (0 : Fin 1))
      = Cert.Spec.mean128 (fun l => (h (ix2 p l) - Cert.Spec.mean128 (fun l' => h (ix2 p l')))
          * (h (ix2 p l) - Cert.Spec.mean128 (fun l' => h (ix2 p l')))) := by
  show Scalar.select (broadcastInDim S50000x1 ![] bcast_S_S50000x1
        (cmpf .ogt (count (F := Ideal)) (constant (F := Ideal) S_ .f32 0x00000000#32)) (ix2 p (0 : Fin 1)))
      (Ideal.div (rowSum (mulf (centered h) (centered h)) (ix2 p (0 : Fin 1))) (perNode (count (F := Ideal)) (ix2 p (0 : Fin 1))))
      (perNode (id (constant (F := Ideal) S_ .f32 0x7FC00000#32)) (ix2 p (0 : Fin 1))) = _
  rw [broadcastInDim_scalar_apply]
  show Scalar.select (FloatOps.cmpf .ogt ((count (F := Ideal)) ix0) (Ideal.ofBits .f32 0x00000000#32)) _ _ = _
  rw [count_pos, select_one, rowSum_apply, perNode_apply, count_eq]
  simp only [ValueIdx.mulf_apply, centered_apply]
  rfl

theorem layer_apply (x : FVec Ideal S50000x256 .f32) (W : FVec Ideal S256x128 .f32) (b s o : FVec Ideal S128 .f32)
    (p : Fin 50000) (q : Fin 128) :
    layer x W b s o (ix2 p q)
      = Cert.Spec.ftRow (fun k => x (ix2 p k)) (fun k j => W (ix2 k j)) (fun j => b (ix1 j)) (fun j => s (ix1 j))
          (fun j => o (ix1 j)) q := by
  show centered (Term.act x W b) (ix2 p q) * alongRows s (ix2 p q)
      * alongCols (Host.rsqrt (addf (rowVar (Term.act x W b)) (perNode (constant (F := Ideal) S_ .f32 0x3089705F#32)))) (ix2 p q)
      + alongRows o (ix2 p q) = _
  rw [alongCols_apply, alongRows_apply, alongRows_apply, centered_apply]
  show _ * _ * Ideal.rsqrt (rowVar (Term.act x W b) (ix2 p (0 : Fin 1))
      + perNode (constant (F := Ideal) S_ .f32 0x3089705F#32) (ix2 p (0 : Fin 1))) + _ = _
  rw [rowVar_apply, perNode_apply]
  simp only [act_apply]
  rfl

/-! ## The result, at every index -/

/-- The reference's result is `Spec.G` of the arguments and the first hop. -/
theorem out_eq_G (feat : FVec Ideal S50000x256 .f32) (W0 : FVec Ideal S256x128 .f32) (b0 s0 o0 : FVec Ideal S128 .f32)
    (W1 : FVec Ideal S256x128 .f32) (b1 s1 o1 : FVec Ideal S128 .f32) (er ec : IVec S800000 32) (ev : FVec Ideal S800000 .f32) :
    Term.out feat W0 b0 s0 o0 W1 b1 s1 o1 er ec ev
      = Cert.Spec.G feat (Term.hop feat er ec ev) W0 b0 s0 o0 W1 b1 s1 o1 := by
  funext i
  obtain ⟨r, c, rfl⟩ : ∃ (r : Fin 50000) (c : Fin 256), i = ix2 r c := ⟨i 0, i 1, eq_ix2 i⟩
  unfold Term.out
  by_cases hc : c.val < 128
  · rw [Cert.Spec.G_left feat _ W0 b0 s0 o0 W1 b1 s1 o1 r ⟨c.val, hc⟩ c rfl]
    refine (concatenate_pair_apply_left (t := S50000x256) (s₁ := S50000x128) (s₂ := S50000x128) (1 : Fin S50000x256.rank)
      (layer feat W0 b0 s0 o0) (layer (Term.hop feat er ec ev) W1 b1 s1 o1)
      concatenates_S50000x128_S50000x128_S50000x256_d1 (ix2 r c) rfl (ix2 r (⟨c.val, hc⟩ : Fin 128))
      (fun bx => by match bx with | ⟨0, _⟩ => rfl | ⟨1, _⟩ => rfl)).trans ?_
    exact layer_apply feat W0 b0 s0 o0 r ⟨c.val, hc⟩
  · have hc' : c.val - 128 < 128 := by have := c.isLt; omega
    rw [Cert.Spec.G_right feat _ W0 b0 s0 o0 W1 b1 s1 o1 r ⟨c.val - 128, hc'⟩ c (by show c.val = c.val - 128 + 128; omega)]
    refine (concatenate_pair_apply_right (t := S50000x256) (s₁ := S50000x128) (s₂ := S50000x128) (1 : Fin S50000x256.rank)
      (layer feat W0 b0 s0 o0) (layer (Term.hop feat er ec ev) W1 b1 s1 o1)
      concatenates_S50000x128_S50000x128_S50000x256_d1 (ix2 r c) rfl rfl (ix2 r (⟨c.val - 128, hc'⟩ : Fin 128))
      (fun bx hb => by
        match bx with
        | ⟨0, _⟩ => rfl
        | ⟨1, _⟩ => exact absurd rfl hb)
      (by show c.val - 128 + 128 = c.val; omega)).trans ?_
    exact layer_apply (Term.hop feat er ec ev) W1 b1 s1 o1 r ⟨c.val - 128, hc'⟩

end Cert.ReferenceIdeal.RefValue

end
-- ==== Proof.lean ====
/-
  The certificate's five claims.

  Both programs compute, for each of 50000 nodes, a normalised dense layer of the node's feature row (result columns
  0 … 127) and of its first-hop row (columns 128 … 255); the first hop, a weighted neighbour sum over the edge list,
  is computed on the host by the same chain of operations in both.  The kernel treats 2000 nodes per grid point and
  its 25 blocks tile the result; the reference treats all nodes at once.  Read index by index on the extended reals
  both results are `Spec.G` of the arguments and the first hop (Proof/KernelValue.lean, Proof/RefValue.lean), with no
  law of real arithmetic beyond `0 + x = x` and `x − 0 = x`, so the precondition is never opened.  The kernel's two
  frames are the generated ones, the reference's is its run with the result dropped, and the ideal pass rewrote
  nothing, so `preserves` is trivial.
-/
import proofs.«103738_j34849364640474_1_alg».proof.Defs
import proofs.«103738_j34849364640474_1_alg».proof.Proof.Gen.Kernel
import proofs.«103738_j34849364640474_1_alg».proof.Proof.Gen.Kernel.Frame
import proofs.«103738_j34849364640474_1_alg».proof.Proof.Gen.KernelIdeal
import proofs.«103738_j34849364640474_1_alg».proof.Proof.Gen.KernelIdeal.Frame
import proofs.«103738_j34849364640474_1_alg».proof.Proof.Gen.ReferenceIdeal
import proofs.«103738_j34849364640474_1_alg».proof.Proof.Gen.Pre_finite_inputs
import proofs.«103738_j34849364640474_1_alg».proof.Proof.KernelValue
import proofs.«103738_j34849364640474_1_alg».proof.Proof.RefRun
import proofs.«103738_j34849364640474_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.HandRun.run (F := Ideal) m ρ)

/-- The ideal pass rewrote no operation. -/
theorem preserves : Cert.preserves_Kernel_KernelIdeal := trivial

/-- The two programs' host chains for the first hop are one function of the features and the edge list: the same
    operations over the same dimension records. -/
theorem hop_eq (feat : FVec Ideal Cert.KernelIdeal.S50000x256 .f32) (er ec : IVec Cert.KernelIdeal.S800000 32)
    (ev : FVec Ideal Cert.KernelIdeal.S800000 .f32) :
    Cert.KernelIdeal.KTerm.hop (F := Ideal) feat er ec ev = Cert.ReferenceIdeal.Term.hop (F := Ideal) feat er ec ev := rfl

/-- From memories agreeing on the arguments both programs end with `Spec.G` of the arguments and the first hop. -/
theorem algebraic : Cert.algebraic_KernelIdeal_ReferenceIdeal := by
  intro m ρ m' ρ' _ hagree
  refine ⟨_, Cert.KernelIdeal.KV.run m ρ, ?_⟩
  refine (θ_run Cert.ReferenceIdeal.defs _ _).mono (fun _ h c => ⟨(h c).1.trans ?_, (h c).2⟩)
    (Cert.ReferenceIdeal.HandRun.run (F := Ideal) m' ρ')
  obtain ⟨h0, h1, h2, h3, h4, h5, h6, h7, h8, h9, h10, h11⟩ := hagree c
  rw [h0, h1, h2, h3, h4, h5, h6, h7, h8, h9, h10, h11, Cert.ReferenceIdeal.RefValue.out_eq_G, ← hop_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
